-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x1024 : Shape := ⟨2, ![8, 1024]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  reducesTo_S8x1024_S_d0_1 : S8x1024.ReducesTo [0, 1] S_
  bcast_S_S8x1024 : S_.BroadcastsInDim S8x1024 (![] : Fin 0 → Fin S8x1024.rank)

variable [Facts]

def fn {F : FTy → Type} [FloatOps F] (main_arg0 : FVec F S8x4096x256 .f32) (main_arg1 : IVec S8x1024 32) (main_arg2 : IVec S8x1024 32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : IVec S8x1024 1 := cmpi .sle main_arg1 main_arg2
  let main_c_0 : IVec S_ 1 := constantI S_ 1 1#1
  let main_v5 : IVec S_ 1 := (fun x v => Host.reduce IntOp.andi x v reducesTo_S8x1024_S_d0_1 h_S_) main_v4 main_c_0
  let main_v6 : IVec S_ 1 := andi main_v3 main_v5
  let main_c_1 : IVec S_ 32 := constantI S_ 32 4096#32
  let main_v7 : IVec S8x1024 32 := broadcastInDim S8x1024 ![] bcast_S_S8x1024 main_c_1
  let main_v8 : IVec S8x1024 1 := cmpi .sle main_arg2 main_v7
  let main_c_2 : IVec S_ 1 := constantI S_ 1 1#1
  let main_v9 : IVec S_ 1 := (fun x v => Host.reduce IntOp.andi x v reducesTo_S8x1024_S_d0_1 h_S_) main_v8 main_c_2
  let main_v10 : IVec S_ 1 := andi main_v6 main_v9
  main_v10
-- ==== Kernel.lean ====
abbrev S8x4096x256 : Shape := ⟨3, ![8, 4096, 256]⟩
abbrev S8x1024 : Shape := ⟨2, ![8, 1024]⟩
abbrev S_ : Shape := ⟨0, ![]⟩
abbrev S8x1024x1 : Shape := ⟨3, ![8, 1024, 1]⟩
abbrev S8x1024x2 : Shape := ⟨3, ![8, 1024, 2]⟩
abbrev S8x1024x256 : Shape := ⟨3, ![8, 1024, 256]⟩
abbrev S1x1024x2 : Shape := ⟨3, ![1, 1024, 2]⟩
abbrev S1x2048x256 : Shape := ⟨3, ![1, 2048, 256]⟩
abbrev S1x1024x256 : Shape := ⟨3, ![1, 1024, 256]⟩
abbrev S1x2048 : Shape := ⟨2, ![1, 2048]⟩
abbrev S1024x2 : Shape := ⟨2, ![1024, 2]⟩
abbrev S1024x1 : Shape := ⟨2, ![1024, 1]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 23
  | .vmem => 6
  | .smem => 0
  | _ => 0

abbrev bufTy : (tb : Table) → Fin (tcTables nBuf tb) → BufTy
  | .hbm, ⟨0, _⟩ => ⟨S8x4096x256, .f32⟩
  | .hbm, ⟨1, _⟩ => ⟨S8x1024, .i32⟩
  | .hbm, ⟨2, _⟩ => ⟨S8x1024, .i32⟩
  | .hbm, ⟨3, _⟩ => ⟨S_, .i32⟩
  | .hbm, ⟨4, _⟩ => ⟨S8x1024, .i32⟩
  | .hbm, ⟨5, _⟩ => ⟨S8x1024, .i32⟩
  | .hbm, ⟨6, _⟩ => ⟨S_, .i32⟩
  | .hbm, ⟨7, _⟩ => ⟨S8x1024, .i32⟩
  | .hbm, ⟨8, _⟩ => ⟨S8x1024, .i32⟩
  | .hbm, ⟨9, _⟩ => ⟨S_, .i32⟩
  | .hbm, ⟨10, _⟩ => ⟨S8x1024, .i32⟩
  | .hbm, ⟨11, _⟩ => ⟨S8x1024, .i32⟩
  | .hbm, ⟨12, _⟩ => ⟨S_, .i32⟩
  | .hbm, ⟨13, _⟩ => ⟨S8x1024, .i32⟩
  | .hbm, ⟨14, _⟩ => ⟨S8x1024, .i32⟩
  | .hbm, ⟨15, _⟩ => ⟨S8x1024, .i32⟩
  | .hbm, ⟨16, _⟩ => ⟨S_, .i32⟩
  | .hbm, ⟨17, _⟩ => ⟨S8x1024, .i32⟩
  | .hbm, ⟨18, _⟩ => ⟨S8x1024, .i32⟩
  | .hbm, ⟨19, _⟩ => ⟨S8x1024x1, .i32⟩
  | .hbm, ⟨20, _⟩ => ⟨S8x1024x1, .i32⟩
  | .hbm, ⟨21, _⟩ => ⟨S8x1024x2, .i32⟩
  | .hbm, ⟨22, _⟩ => ⟨S8x1024x256, .f32⟩
  | .local _ .vmem, ⟨0, _⟩ => ⟨S1x1024x2, .i32⟩
  | .local _ .vmem, ⟨1, _⟩ => ⟨S1x1024x2, .i32⟩
  | .local _ .vmem, ⟨2, _⟩ => ⟨S1x2048x256, .f32⟩
  | .local _ .vmem, ⟨3, _⟩ => ⟨S1x2048x256, .f32⟩
  | .local _ .vmem, ⟨4, _⟩ => ⟨S1x1024x256, .f32⟩
  | .local _ .vmem, ⟨5, _⟩ => ⟨S1x1024x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_5 : BitVec 32 := 0#32
  let v23 : BitVec 1 := Scalar.cmpi .ne v22 c0_i32_5
  v23

def k0_cond2 (i : grid0.Coords) : BitVec 1 :=
  let arg1 : BitVec 32 := BitVec.ofNat 32 (i 1).val
  let c0_i32_6 : BitVec 32 := 0#32
  let v24 : BitVec 1 := Scalar.cmpi .ne arg1 c0_i32_6
  let v25 : BitVec 32 := Scalar.extui v24
  let c0_i32_7 : BitVec 32 := 0#32
  let v26 : BitVec 1 := Scalar.cmpi .ne v25 c0_i32_7
  v26

def k0_cond3 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_8 : BitVec 32 := 0#32
  let v29 : BitVec 1 := Scalar.cmpi .ne v28 c0_i32_8
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  concatenates_S8x1024x1_S8x1024x1_S8x1024x2_d2 : Shape.Concatenates [S8x1024x1, S8x1024x1] S8x1024x2 2
  iota_S1x2048_d1_w32 : S1x2048.Iotas .tc 32 [1]
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  slices_S1024x2_o0_0_S1024x1 : S1024x2.Slices ![0, 0] S1024x1
  slices_S1024x2_o0_1_S1024x1 : S1024x2.Slices ![0, 1] S1024x1
  broadcasts_S1x2048_S1024x2048 : S1x2048.Broadcasts S1024x2048
  broadcasts_S1024x1_S1024x2048 : S1024x1.Broadcasts S1024x2048
  natLt_1_32 : 1 < 32
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  broadcasts_S1024x1_S1024x256 : S1024x1.Broadcasts S1024x256
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2.size a ≤ S8x1024x2.size a
  hwx0_0 : ∀ i : grid0.Coords, EltTy.bits .i32 = 32 ∨ (Rect.block (s := S8x1024x2) S1x1024x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x4096x256.size a
  hwx0_1 : ∀ i : grid0.Coords, EltTy.bits .f32 = 32 ∨ (Rect.block (s := S8x4096x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S8x1024x256.size a
  hwx0_2 : ∀ i : grid0.Coords, EltTy.bits .f32 = 32 ∨ (Rect.block (s := S8x1024x256) S1x1024x256.size (cc0_transform_2 i) (hinb0_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v13) S1x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S8x4096x256 : Shape := ⟨3, ![8, 4096, 256]⟩
abbrev S8x1024 : Shape := ⟨2, ![8, 1024]⟩
abbrev S_ : Shape := ⟨0, ![]⟩
abbrev S8x1024x1 : Shape := ⟨3, ![8, 1024, 1]⟩
abbrev S32 : Shape := ⟨1, ![32]⟩
abbrev S1x1x32 : Shape := ⟨3, ![1, 1, 32]⟩
abbrev S8x1024x32 : Shape := ⟨3, ![8, 1024, 32]⟩
abbrev S8x1024x32x1 : Shape := ⟨4, ![8, 1024, 32, 1]⟩
abbrev S8x1024x32x256 : Shape := ⟨4, ![8, 1024, 32, 256]⟩
abbrev S8x1024x256 : Shape := ⟨3, ![8, 1024, 256]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x1024, .i32⟩
  | .hbm, ⟨2, _⟩ => ⟨S8x1024, .i32⟩
  | .hbm, ⟨3, _⟩ => ⟨S_, .i32⟩
  | .hbm, ⟨4, _⟩ => ⟨S8x1024, .i32⟩
  | .hbm, ⟨5, _⟩ => ⟨S8x1024, .i32⟩
  | .hbm, ⟨6, _⟩ => ⟨S_, .i32⟩
  | .hbm, ⟨7, _⟩ => ⟨S8x1024, .i32⟩
  | .hbm, ⟨8, _⟩ => ⟨S8x1024, .i32⟩
  | .hbm, ⟨9, _⟩ => ⟨S8x1024x1, .i32⟩
  | .hbm, ⟨10, _⟩ => ⟨S32, .i32⟩
  | .hbm, ⟨11, _⟩ => ⟨S1x1x32, .i32⟩
  | .hbm, ⟨12, _⟩ => ⟨S8x1024x32, .i32⟩
  | .hbm, ⟨13, _⟩ => ⟨S8x1024x32, .i32⟩
  | .hbm, ⟨14, _⟩ => ⟨S8x1024x32, .i32⟩
  | .hbm, ⟨15, _⟩ => ⟨S8x1024x1, .i32⟩
  | .hbm, ⟨16, _⟩ => ⟨S8x1024x32, .i32⟩
  | .hbm, ⟨17, _⟩ => ⟨S8x1024x32, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S8x1024x32, .i32⟩
  | .hbm, ⟨22, _⟩ => ⟨S8x1024x32, .i32⟩
  | .hbm, ⟨23, _⟩ => ⟨S_, .i32⟩
  | .hbm, ⟨24, _⟩ => ⟨S8x1024x32, .i32⟩
  | .hbm, ⟨25, _⟩ => ⟨S8x1024x32, .i32⟩
  | .hbm, ⟨26, _⟩ => ⟨S_, .i32⟩
  | .hbm, ⟨27, _⟩ => ⟨S8x1024x32, .i32⟩
  | .hbm, ⟨28, _⟩ => ⟨S8x1024x32, .i1⟩
  | .hbm, ⟨29, _⟩ => ⟨S_, .i32⟩
  | .hbm, ⟨30, _⟩ => ⟨S8x1024x32, .i32⟩
  | .hbm, ⟨31, _⟩ => ⟨S8x1024x32, .i32⟩
  | .hbm, ⟨32, _⟩ => ⟨S8x1024x32, .i32⟩
  | .hbm, ⟨33, _⟩ => ⟨S8x1024x32x1, .i32⟩
  | .hbm, ⟨34, _⟩ => ⟨S8x1024x32x256, .f32⟩
  | .hbm, ⟨35, _⟩ => ⟨S8x1024x32x1, .i1⟩
  | .hbm, ⟨36, _⟩ => ⟨S_, .f32⟩
  | .hbm, ⟨37, _⟩ => ⟨S_, .f32⟩
  | .hbm, ⟨38, _⟩ => ⟨S8x1024x32x256, .i1⟩
  | .hbm, ⟨39, _⟩ => ⟨S8x1024x32x256, .f32⟩
  | .hbm, ⟨40, _⟩ => ⟨S8x1024x32x256, .f32⟩
  | .hbm, ⟨41, _⟩ => ⟨S_, .f32⟩
  | .hbm, ⟨42, _⟩ => ⟨S8x1024x256, .f32⟩
  | .hbm, ⟨43, _⟩ => ⟨S8x1024x32, .i32⟩
  | .hbm, ⟨44, _⟩ => ⟨S_, .i32⟩
  | .hbm, ⟨45, _⟩ => ⟨S8x1024, .i32⟩
  | .hbm, ⟨46, _⟩ => ⟨S8x1024, .f32⟩
  | .hbm, ⟨47, _⟩ => ⟨S_, .f32⟩
  | .hbm, ⟨48, _⟩ => ⟨S8x1024, .f32⟩
  | .hbm, ⟨49, _⟩ => ⟨S8x1024, .f32⟩
  | .hbm, ⟨50, _⟩ => ⟨S8x1024x1, .f32⟩
  | .hbm, ⟨51, _⟩ => ⟨S8x1024x256, .f32⟩
  | .hbm, ⟨52, _⟩ => ⟨S8x1024x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S32_S1x1x32_2 : S32.BroadcastsInDim S1x1x32 (![2] : Fin 1 → Fin S1x1x32.rank)
  bcast_S8x1024x1_S8x1024x32_0_1_2 : S8x1024x1.BroadcastsInDim S8x1024x32 (![0, 1, 2] : Fin 3 → Fin S8x1024x32.rank)
  bcast_S1x1x32_S8x1024x32_0_1_2 : S1x1x32.BroadcastsInDim S8x1024x32 (![0, 1, 2] : Fin 3 → Fin S8x1024x32.rank)
  bcast_S_S8x1024x32 : S_.BroadcastsInDim S8x1024x32 (![] : Fin 0 → Fin S8x1024x32.rank)
  bcast_S8x1024x32_S8x1024x32x1_0_1_2 : S8x1024x32.BroadcastsInDim S8x1024x32x1 (![0, 1, 2] : Fin 3 → Fin S8x1024x32x1.rank)
  bcast_S8x1024x32x1_S8x1024x32x256_0_1_2_3 : S8x1024x32x1.BroadcastsInDim S8x1024x32x256 (![0, 1, 2, 3] : Fin 4 → Fin S8x1024x32x256.rank)
  bcast_S_S8x1024x32x256 : S_.BroadcastsInDim S8x1024x32x256 (![] : Fin 0 → Fin S8x1024x32x256.rank)
  reducesTo_S8x1024x32x256_S8x1024x256_d2 : S8x1024x32x256.ReducesTo [2] S8x1024x256
  h_S_ : 0 < S_.numel
  natLt_1_32 : 1 < 32
  reducesTo_S8x1024x32_S8x1024_d2 : S8x1024x32.ReducesTo [2] S8x1024
  bcast_S8x1024x1_S8x1024x256_0_1_2 : S8x1024x1.BroadcastsInDim S8x1024x256 (![0, 1, 2] : Fin 3 → Fin S8x1024x256.rank)
  gather_S8x4096x256_S8x1024x32x1_S8x1024x32x256_3_1_0_0_1_3_11256_wf : GatherDims.WF S8x4096x256 S8x1024x32x1 S8x1024x32x256 [3] [1] [0] [1] [0] 3 ![1, 1, 256]

variable [Facts₀]

def gather_S8x4096x256_S8x1024x32x1_S8x1024x32x256_3_1_0_0_1_3_11256 : GatherDims S8x4096x256 S8x1024x32x1 S8x1024x32x256 where
  offsetDims := [3]
  collapsedSliceDims := [1]
  operandBatchingDims := [0]
  startIndicesBatchingDims := [0]
  startIndexMap := [1]
  indexVectorDim := 3
  sliceSizes := ![1, 1, 256]
  wf := gather_S8x4096x256_S8x1024x32x1_S8x1024x32x256_3_1_0_0_1_3_11256_wf

class Facts : Prop extends Facts₀ where

variable [Facts]
-- ==== Proof.Body.lean ====
/-
  The frame of the pooling kernel, at any float instance.

  The grid is 8 batches by 2 tiles of 2048 positions; a batch's output block stays in one staging buffer across its
  two tiles and is written back after the second. At the first tile of a batch (an even point) the body stores the
  tile's indicator product over whatever the buffer held; at the second (an odd point) it adds the tile's product to
  what the first left, stores the sum, reads it back and stores the quotient by the window length. So the buffer's
  contents after a point are a function of that point's blocks and, at an odd point, of the point before: no longer
  history is carried. Every access is a load or a store of a whole buffer, so what a run of stores leaves is the
  payload of the last one.
-/
import proofs.«410348_j53592601919893_3_alg».proof.Proof.Gen.KernelIdeal.Frame
import proofs.«410348_j53592601919893_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the idle table, decided over the grid -/

/-- The first branch (store the tile's product) is taken at the even points, -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second (add the tile's product) at the odd points, -/
theorem add_iff : ∀ t : Fin cfg0.N, k0_cond2 (grid0.coords t) = 1#1 ↔ t.val % 2 = 1 :=
  (by decide +kernel : ∀ t : Fin grid0.N, k0_cond2 (grid0.coords t) = 1#1 ↔ t.val % 2 = 1)
/-- and the third (divide by the window length) at the odd points too. -/
theorem div_iff : ∀ t : Fin cfg0.N, k0_cond3 (grid0.coords t) = 1#1 ↔ t.val % 2 = 1 :=
  (by decide +kernel : ∀ t : Fin grid0.N, k0_cond3 (grid0.coords t) = 1#1 ↔ t.val % 2 = 1)

/-- No window is idle anywhere: at every grid coordinate one of the three branches stores into the output. -/
theorem live_in0 : ∀ t : Fin cfg0.N, cfg0.idle 0 (grid0.coords t) = false := by decide +kernel
theorem live_in1 : ∀ t : Fin cfg0.N, cfg0.idle 1 (grid0.coords t) = false := by decide +kernel
theorem live_out : ∀ t : Fin cfg0.N, cfg0.idle 2 (grid0.coords t) = false := by decide +kernel
theorem live_out_all : ∀ i : grid0.Coords, cfg0.idle 2 i = false := by decide +kernel

/-- The zero offsets of a whole-buffer access. -/
theorem zero3 : (![0, 0, 0] : Fin 3 → ℕ) = fun _ => 0 := by
  funext a; match a with | ⟨0, _⟩ => rfl | ⟨1, _⟩ => rfl | ⟨2, _⟩ => rfl

/-! ## The body on any whole staging buffers -/

set_option maxHeartbeats 1000000 in
/-- At a first tile: the inputs are read and left alone, and the output buffer, whatever it held, ends at the tile's
    indicator product. -/
theorem run_first (c : Dev nD) (i : grid0.Coords) (arg2 : Memref sig .tc .vmem S1x1024x2 .i32) (harg2 : arg2.IsWhole)
    (arg3 : Memref sig .tc .vmem S1x2048x256 .f32) (harg3 : arg3.IsWhole) (arg4 : Memref sig .tc .vmem S1x1024x256 .f32) (harg4 : arg4.IsWhole)
    (hc1 : k0_cond1 i = 1#1) (hc2 : ¬ k0_cond2 i = 1#1) (hc3 : ¬ k0_cond3 i = 1#1)
    (x0 : Vec F S1x1024x2 .i32) (x1 : Vec F S1x2048x256 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ owns (c : Thread nD τ) arg4 fullShare (k0_pay5 i x0 x1)) -∗ K ⟨⟩))
          ⊢ wp frame (wpE (defs₀ (F := F)) Variants.none c none) E (cc0__pool_kernel i arg2 harg2 arg3 harg3 arg4 harg4) K := by
  intro E K
  simp only [cc0__pool_kernel_eq_skeleton]; unfold cc0__pool_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  rw [View.read_writes_eq_canon _ _ _ (fun y => ⟨_, List.mem_singleton_self _, View.mem_set_unit_zero zero3 inb_S1x1024x256_S1x1024x256_0_0_0 y⟩),
    View.canon_unit_zero zero3]
  simp only [View.readAt_eq_ld, harg2.read_unread, harg3.read_unread, View.ld_unit_zero (S := S1x1024x2) zero3,
    View.ld_unit_zero (S := S1x2048x256) zero3]

set_option maxHeartbeats 1000000 in
/-- At a second tile: the output buffer enters at the first tile's contents `xo` and ends at the quotient of
    `xo` plus this tile's product by the window length. -/
theorem run_second (c : Dev nD) (i : grid0.Coords) (arg2 : Memref sig .tc .vmem S1x1024x2 .i32) (harg2 : arg2.IsWhole)
    (arg3 : Memref sig .tc .vmem S1x2048x256 .f32) (harg3 : arg3.IsWhole) (arg4 : Memref sig .tc .vmem S1x1024x256 .f32) (harg4 : arg4.IsWhole)
    (hc1 : ¬ k0_cond1 i = 1#1) (hc2 : k0_cond2 i = 1#1) (hc3 : k0_cond3 i = 1#1)
    (x0 : Vec F S1x1024x2 .i32) (x1 : Vec F S1x2048x256 .f32) (xo : Vec F S1x1024x256 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ owns (c : Thread nD τ) arg4 fullShare (k0_pay7 x0 (k0_pay6 i x0 x1 xo))) -∗ K ⟨⟩))
          ⊢ wp frame (wpE (defs₀ (F := F)) Variants.none c none) E (cc0__pool_kernel i arg2 harg2 arg3 harg3 arg4 harg4) K := by
  intro E K
  simp only [cc0__pool_kernel_eq_skeleton]; unfold cc0__pool_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  sl_unfold_words
  rw [View.read_writes_eq_canon _ _ _ (fun y => ⟨_, List.mem_cons.mpr (Or.inl rfl), View.mem_set_unit_zero zero3 inb_S1x1024x256_S1x1024x256_0_0_0 y⟩),
    View.canon_cons_unit_zero zero3]
  simp only [View.readAt_eq_ld, harg2.read_unread, harg3.read_unread, harg4.read_unread, View.ld_unit_zero (S := S1x1024x2) zero3,
    View.ld_unit_zero (S := S1x2048x256) zero3, View.ld_unit_zero (S := S1x1024x256) zero3,
    View.readCov_unit_zero (S := S1x1024x256) _ zero3]

/-! ## What the output's staging buffer holds after each point -/

/-- The current staging buffers at a point, as the pipeline passes them to the body. -/
abbrev mem0 (t : Fin cfg0.N) : Memref sig .tc .vmem S1x1024x2 .i32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x2048x256 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x1024x256 .f32 := win0_2.stage (cfg0.slots t 2)
abbrev whole2 (t : Fin cfg0.N) : (mem2 t).IsWhole := hstage0_2 ((cfg0.slots t 2).cast nbuf0_2)

/-- The point before. -/
abbrev prevPt (t : Fin cfg0.N) : Fin cfg0.N := ⟨t.val - 1, Nat.lt_of_le_of_lt (Nat.sub_le _ _) t.isLt⟩

/-- A tile's indicator product, from the point's begin/end block and feature block. -/
def tileAt (c : Dev nD) (t : Fin cfg0.N) : Vec F S1x1024x256 .f32 :=
  k0_pay5 (grid0.coords t) (iblk m c 0 t) (iblk m c 1 t)

/-- The output buffer after point `t`: at an even point the tile's product; at an odd point the quotient, by the
    window length, of the product the point before left plus this tile's. -/
def leftAt (c : Dev nD) (t : Fin cfg0.N) : Vec F S1x1024x256 .f32 :=
  if t.val % 2 = 0 then tileAt m c t
  else k0_pay7 (iblk m c 0 t) (k0_pay6 (grid0.coords t) (iblk m c 0 t) (iblk m c 1 t) (tileAt m c (prevPt t)))

theorem leftAt_even (c : Dev nD) (t : Fin cfg0.N) (h : t.val % 2 = 0) : leftAt m c t = tileAt m c t := by
  unfold leftAt; rw [if_pos h]

theorem leftAt_odd (c : Dev nD) (t : Fin cfg0.N) (h : ¬ t.val % 2 = 0) :
    leftAt m c t = k0_pay7 (iblk m c 0 t) (k0_pay6 (grid0.coords t) (iblk m c 0 t) (iblk m c 1 t) (tileAt m c (prevPt t))) := by
  unfold leftAt; rw [if_neg h]

/-! ## The pipeline's proof data -/

/-- The arrays as the region finds them; after the body each input's buffer still at its block and the output's at
    `leftAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => leftAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = leftAt m c t := by dsimp only [dats]

/-- Each input's current buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-- At an odd point the output's current buffer holds what the point before left: the point is not the first, the
    block is not written back in between, the window is live and its blocks uncut. -/
theorem before_out_odd (c : Dev nD) (t : Fin cfg0.N) (h : ¬ t.val % 2 = 0) (d) :
    (dats m 0 c).before 2 t d = tileAt m c (prevPt t) := by
  have hN : t.val < 16 := lt_of_lt_of_eq t.isLt (show cfg0.N = 16 from N_0)
  rw [Dat.before_out_kept _ 2 rfl t (by omega)
    (Bool.eq_false_iff.mpr fun hf => by have := (flush0_2 _).mp hf; dsimp only at this; omega)
    live_out_all (fun _ _ => rfl)]
  rw [after_out]
  exact leftAt_even m c _ (by dsimp only; omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: by the point's parity one of the two runs applies, the output's buffer at an odd point
    entering at what the even point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (mem0 t) fullShare ((dats m 0 c).after 0 t) from by
        unfold Dat.leavesExact; rw [live_in0 t], after_in0,
    show (dats m 0 c).leavesExact 1 t = owns (c : Thread nD τ) (mem1 t) fullShare ((dats m 0 c).after 1 t) from by
        unfold Dat.leavesExact; rw [live_in1 t], after_in1,
    show (dats m 0 c).leavesExact 2 t = owns (c : Thread nD τ) (mem2 t) fullShare ((dats m 0 c).after 2 t) from by
        unfold Dat.leavesExact; rw [live_out t], after_out]
  by_cases h0 : t.val % 2 = 0
  · rw [leftAt_even m c t h0]
    unfold tileAt
    iintro ⟨HΦ, Ho, ⟨%d0, H0⟩, ⟨%d1, H1⟩, ⟨%d2, H2⟩⟩
    iapply ((run_first c (grid0.coords t) _ _ _ _ _ _ ((first_iff t).mpr h0) (fun h => by have := (add_iff t).mp h; omega)
      (fun h => by have := (div_iff t).mp h; omega) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [leftAt_odd m c t h0]
    simp only [before_out_odd m c t h0]
    iintro ⟨HΦ, Ho, ⟨%d0, H0⟩, ⟨%d1, H1⟩, ⟨%d2, H2⟩⟩
    iapply ((run_second c (grid0.coords t) _ _ _ _ _ _ (fun h => h0 ((first_iff t).mp h)) ((add_iff t).mpr (by omega))
      ((div_iff t).mpr (by omega)) (iblk m c 0 t) (iblk m c 1 t) (tileAt m c (prevPt t))) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.BodyK.lean ====
/-
  The frame of the pooling kernel, at any float instance.

  The grid is 8 batches by 2 tiles of 2048 positions; a batch's output block stays in one staging buffer across its
  two tiles and is written back after the second. At the first tile of a batch (an even point) the body stores the
  tile's indicator product over whatever the buffer held; at the second (an odd point) it adds the tile's product to
  what the first left, stores the sum, reads it back and stores the quotient by the window length. So the buffer's
  contents after a point are a function of that point's blocks and, at an odd point, of the point before: no longer
  history is carried. Every access is a load or a store of a whole buffer, so what a run of stores leaves is the
  payload of the last one.
-/
import proofs.«410348_j53592601919893_3_alg».proof.Proof.Gen.Kernel.Frame
import proofs.«410348_j53592601919893_3_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the idle table, decided over the grid -/

/-- The first branch (store the tile's product) is taken at the even points, -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second (add the tile's product) at the odd points, -/
theorem add_iff : ∀ t : Fin cfg0.N, k0_cond2 (grid0.coords t) = 1#1 ↔ t.val % 2 = 1 :=
  (by decide +kernel : ∀ t : Fin grid0.N, k0_cond2 (grid0.coords t) = 1#1 ↔ t.val % 2 = 1)
/-- and the third (divide by the window length) at the odd points too. -/
theorem div_iff : ∀ t : Fin cfg0.N, k0_cond3 (grid0.coords t) = 1#1 ↔ t.val % 2 = 1 :=
  (by decide +kernel : ∀ t : Fin grid0.N, k0_cond3 (grid0.coords t) = 1#1 ↔ t.val % 2 = 1)

/-- No window is idle anywhere: at every grid coordinate one of the three branches stores into the output. -/
theorem live_in0 : ∀ t : Fin cfg0.N, cfg0.idle 0 (grid0.coords t) = false := by decide +kernel
theorem live_in1 : ∀ t : Fin cfg0.N, cfg0.idle 1 (grid0.coords t) = false := by decide +kernel
theorem live_out : ∀ t : Fin cfg0.N, cfg0.idle 2 (grid0.coords t) = false := by decide +kernel
theorem live_out_all : ∀ i : grid0.Coords, cfg0.idle 2 i = false := by decide +kernel

/-- The zero offsets of a whole-buffer access. -/
theorem zero3 : (![0, 0, 0] : Fin 3 → ℕ) = fun _ => 0 := by
  funext a; match a with | ⟨0, _⟩ => rfl | ⟨1, _⟩ => rfl | ⟨2, _⟩ => rfl

/-! ## The body on any whole staging buffers -/

set_option maxHeartbeats 1000000 in
/-- At a first tile: the inputs are read and left alone, and the output buffer, whatever it held, ends at the tile's
    indicator product. -/
theorem run_first (c : Dev nD) (i : grid0.Coords) (arg2 : Memref sig .tc .vmem S1x1024x2 .i32) (harg2 : arg2.IsWhole)
    (arg3 : Memref sig .tc .vmem S1x2048x256 .f32) (harg3 : arg3.IsWhole) (arg4 : Memref sig .tc .vmem S1x1024x256 .f32) (harg4 : arg4.IsWhole)
    (hc1 : k0_cond1 i = 1#1) (hc2 : ¬ k0_cond2 i = 1#1) (hc3 : ¬ k0_cond3 i = 1#1)
    (x0 : Vec F S1x1024x2 .i32) (x1 : Vec F S1x2048x256 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ owns (c : Thread nD τ) arg4 fullShare (k0_pay5 i x0 x1)) -∗ K ⟨⟩))
          ⊢ wp frame (wpE (defs₀ (F := F)) Variants.none c none) E (cc0__pool_kernel i arg2 harg2 arg3 harg3 arg4 harg4) K := by
  intro E K
  simp only [cc0__pool_kernel_eq_skeleton]; unfold cc0__pool_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  rw [View.read_writes_eq_canon _ _ _ (fun y => ⟨_, List.mem_singleton_self _, View.mem_set_unit_zero zero3 inb_S1x1024x256_S1x1024x256_0_0_0 y⟩),
    View.canon_unit_zero zero3]
  simp only [View.readAt_eq_ld, harg2.read_unread, harg3.read_unread, View.ld_unit_zero (S := S1x1024x2) zero3,
    View.ld_unit_zero (S := S1x2048x256) zero3]

set_option maxHeartbeats 1000000 in
/-- At a second tile: the output buffer enters at the first tile's contents `xo` and ends at the quotient of
    `xo` plus this tile's product by the window length. -/
theorem run_second (c : Dev nD) (i : grid0.Coords) (arg2 : Memref sig .tc .vmem S1x1024x2 .i32) (harg2 : arg2.IsWhole)
    (arg3 : Memref sig .tc .vmem S1x2048x256 .f32) (harg3 : arg3.IsWhole) (arg4 : Memref sig .tc .vmem S1x1024x256 .f32) (harg4 : arg4.IsWhole)
    (hc1 : ¬ k0_cond1 i = 1#1) (hc2 : k0_cond2 i = 1#1) (hc3 : k0_cond3 i = 1#1)
    (x0 : Vec F S1x1024x2 .i32) (x1 : Vec F S1x2048x256 .f32) (xo : Vec F S1x1024x256 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ owns (c : Thread nD τ) arg4 fullShare (k0_pay7 x0 (k0_pay6 i x0 x1 xo))) -∗ K ⟨⟩))
          ⊢ wp frame (wpE (defs₀ (F := F)) Variants.none c none) E (cc0__pool_kernel i arg2 harg2 arg3 harg3 arg4 harg4) K := by
  intro E K
  simp only [cc0__pool_kernel_eq_skeleton]; unfold cc0__pool_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  sl_unfold_words
  rw [View.read_writes_eq_canon _ _ _ (fun y => ⟨_, List.mem_cons.mpr (Or.inl rfl), View.mem_set_unit_zero zero3 inb_S1x1024x256_S1x1024x256_0_0_0 y⟩),
    View.canon_cons_unit_zero zero3]
  simp only [View.readAt_eq_ld, harg2.read_unread, harg3.read_unread, harg4.read_unread, View.ld_unit_zero (S := S1x1024x2) zero3,
    View.ld_unit_zero (S := S1x2048x256) zero3, View.ld_unit_zero (S := S1x1024x256) zero3,
    View.readCov_unit_zero (S := S1x1024x256) _ zero3]

/-! ## What the output's staging buffer holds after each point -/

/-- The current staging buffers at a point, as the pipeline passes them to the body. -/
abbrev mem0 (t : Fin cfg0.N) : Memref sig .tc .vmem S1x1024x2 .i32 := win0_0.stage (cfg0.slots t 0)
abbrev whole0 (t : Fin cfg0.N) : (mem0 t).IsWhole := hstage0_0 ((cfg0.slots t 0).cast nbuf0_0)
abbrev mem1 (t : Fin cfg0.N) : Memref sig .tc .vmem S1x2048x256 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x1024x256 .f32 := win0_2.stage (cfg0.slots t 2)
abbrev whole2 (t : Fin cfg0.N) : (mem2 t).IsWhole := hstage0_2 ((cfg0.slots t 2).cast nbuf0_2)

/-- The point before. -/
abbrev prevPt (t : Fin cfg0.N) : Fin cfg0.N := ⟨t.val - 1, Nat.lt_of_le_of_lt (Nat.sub_le _ _) t.isLt⟩

/-- A tile's indicator product, from the point's begin/end block and feature block. -/
def tileAt (c : Dev nD) (t : Fin cfg0.N) : Vec F S1x1024x256 .f32 :=
  k0_pay5 (grid0.coords t) (iblk m c 0 t) (iblk m c 1 t)

/-- The output buffer after point `t`: at an even point the tile's product; at an odd point the quotient, by the
    window length, of the product the point before left plus this tile's. -/
def leftAt (c : Dev nD) (t : Fin cfg0.N) : Vec F S1x1024x256 .f32 :=
  if t.val % 2 = 0 then tileAt m c t
  else k0_pay7 (iblk m c 0 t) (k0_pay6 (grid0.coords t) (iblk m c 0 t) (iblk m c 1 t) (tileAt m c (prevPt t)))

theorem leftAt_even (c : Dev nD) (t : Fin cfg0.N) (h : t.val % 2 = 0) : leftAt m c t = tileAt m c t := by
  unfold leftAt; rw [if_pos h]

theorem leftAt_odd (c : Dev nD) (t : Fin cfg0.N) (h : ¬ t.val % 2 = 0) :
    leftAt m c t = k0_pay7 (iblk m c 0 t) (k0_pay6 (grid0.coords t) (iblk m c 0 t) (iblk m c 1 t) (tileAt m c (prevPt t))) := by
  unfold leftAt; rw [if_neg h]

/-! ## The pipeline's proof data -/

/-- The arrays as the region finds them; after the body each input's buffer still at its block and the output's at
    `leftAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => leftAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = leftAt m c t := by dsimp only [dats]

/-- Each input's current buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-- At an odd point the output's current buffer holds what the point before left: the point is not the first, the
    block is not written back in between, the window is live and its blocks uncut. -/
theorem before_out_odd (c : Dev nD) (t : Fin cfg0.N) (h : ¬ t.val % 2 = 0) (d) :
    (dats m 0 c).before 2 t d = tileAt m c (prevPt t) := by
  have hN : t.val < 16 := lt_of_lt_of_eq t.isLt (show cfg0.N = 16 from N_0)
  rw [Dat.before_out_kept _ 2 rfl t (by omega)
    (Bool.eq_false_iff.mpr fun hf => by have := (flush0_2 _).mp hf; dsimp only at this; omega)
    live_out_all (fun _ _ => rfl)]
  rw [after_out]
  exact leftAt_even m c _ (by dsimp only; omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: by the point's parity one of the two runs applies, the output's buffer at an odd point
    entering at what the even point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (mem0 t) fullShare ((dats m 0 c).after 0 t) from by
        unfold Dat.leavesExact; rw [live_in0 t], after_in0,
    show (dats m 0 c).leavesExact 1 t = owns (c : Thread nD τ) (mem1 t) fullShare ((dats m 0 c).after 1 t) from by
        unfold Dat.leavesExact; rw [live_in1 t], after_in1,
    show (dats m 0 c).leavesExact 2 t = owns (c : Thread nD τ) (mem2 t) fullShare ((dats m 0 c).after 2 t) from by
        unfold Dat.leavesExact; rw [live_out t], after_out]
  by_cases h0 : t.val % 2 = 0
  · rw [leftAt_even m c t h0]
    unfold tileAt
    iintro ⟨HΦ, Ho, ⟨%d0, H0⟩, ⟨%d1, H1⟩, ⟨%d2, H2⟩⟩
    iapply ((run_first c (grid0.coords t) _ _ _ _ _ _ ((first_iff t).mpr h0) (fun h => by have := (add_iff t).mp h; omega)
      (fun h => by have := (div_iff t).mp h; omega) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [leftAt_odd m c t h0]
    simp only [before_out_odd m c t h0]
    iintro ⟨HΦ, Ho, ⟨%d0, H0⟩, ⟨%d1, H1⟩, ⟨%d2, H2⟩⟩
    iapply ((run_second c (grid0.coords t) _ _ _ _ _ _ (fun h => h0 ((first_iff t).mp h)) ((add_iff t).mpr (by omega))
      ((div_iff t).mpr (by omega)) (iblk m c 0 t) (iblk m c 1 t) (tileAt m c (prevPt t))) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.Spec.lean ====
/-
  The pooled mean of a ragged window, as one function of the argument arrays.

  For a span whose begin and end words are `b` and `e` (read signed), both programs clamp the two at zero and
  read at most 32 positions: the window is the set of positions `t` with `lo b ≤ t < hi b e`, where
  `lo b = max b 0` and `hi b e = min (max e 0) (lo b + 32)`. On the domain `b ≤ e ≤ 4096` the window lies inside
  the 4096 positions of the sequence axis. The result at (batch, span, feature) is the sum of the features at the
  window's positions divided by the number of positions, the divisor raised to 1 for an empty window.
-/
import Idealize.ShloMosaic.PureOps.Ideal
import Idealize.ShloMosaic.Lib.ValueIdx

noncomputable section

open scoped BigOperators

namespace Cert.Pool

open Idealize.ShloMosaic Idealize.ShloMosaic.ValueIdx

/-- The features' shape: batch, position, feature. -/
abbrev SF : Shape := ⟨3, ![8, 4096, 256]⟩
/-- The begin and end words' shape: batch, span. -/
abbrev SB : Shape := ⟨2, ![8, 1024]⟩
/-- The result's shape: batch, span, feature. -/
abbrev SO : Shape := ⟨3, ![8, 1024, 256]⟩

/-- The window's first position: the begin word read signed, clamped at zero. -/
def lo (b : BitVec 32) : ℕ := (max b.toInt 0).toNat

/-- One past the window's last position: the end word read signed, clamped at zero, and at most 32 positions
    after the first. -/
def hi (b e : BitVec 32) : ℕ := min (max e.toInt 0).toNat (lo b + 32)

/-- The domain of a span: begin ≤ end ≤ 4096 as signed words. -/
def InDom (b e : BitVec 32) : Prop := b.toInt ≤ e.toInt ∧ e.toInt ≤ 4096

/-- The sum of a row of 4096 values over the window's positions. -/
def wsum (b e : BitVec 32) (x : Fin 4096 → EReal) : EReal :=
  ∑ t : Fin 4096, if lo b ≤ t.val ∧ t.val < hi b e then x t else 0

/-- The divisor: the number of positions in the window, raised to 1 when there is none. -/
def wcnt (b e : BitVec 32) : EReal := max (((hi b e - lo b : ℕ) : ℝ) : EReal) 1

/-- The mean of a row over the window of one span. -/
def pool1 (b e : BitVec 32) (x : Fin 4096 → EReal) : EReal := Ideal.div (wsum b e x) (wcnt b e)

/-- The whole result: at (batch, span, feature) the mean over the span's window of that batch's feature column. -/
def G (x : SF.Idx → EReal) (bg en : SB.Idx → BitVec 32) : SO.Idx → EReal := fun i =>
  pool1 (bg (ix2 (n0 := 8) (n1 := 1024) (i 0) (i 1))) (en (ix2 (n0 := 8) (n1 := 1024) (i 0) (i 1)))
    (fun t => x (ix3 (n0 := 8) (n1 := 4096) (n2 := 256) (i 0) t (i 2)))

/-- The begin word as the kernel's host code clamps it: at zero from below, at 4096 from above. -/
def kb (b : BitVec 32) : BitVec 32 := IntOp.minsi (IntOp.maxsi b 0#32) 4096#32

/-- The end word as the kernel's host code clamps it: at zero from below, at 32 past the clamped begin and at 4096
    from above. -/
def ke (b e : BitVec 32) : BitVec 32 :=
  IntOp.minsi (IntOp.minsi (IntOp.maxsi e 0#32) (IntOp.addi (kb b) 32#32)) 4096#32

end Cert.Pool

end
-- ==== Proof.KHost.lean ====
/-
  What the host code leaves in the packed table of clamped begin and end words.

  Before the one region, the host clamps every begin word to [0, 4096], clamps every end word to
  [0, min (clamped begin + 32, 4096)], and lays the two arrays side by side along a new last axis of extent 2:
  column 0 of the packed table is the clamped begin, column 1 the clamped end.
-/
import proofs.«410348_j53592601919893_3_alg».proof.Proof.Gen.KernelIdeal.Frame
import proofs.«410348_j53592601919893_3_alg».proof.Proof.Spec
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.ValueIdx Idealize.ShloMosaic.TcCoe

variable {F : FTy → Type} [FloatOps F]
variable (m : (ℓ : Loc nD τ sig) → Buf (Elt F) ℓ)

/-- Every begin word clamped at zero from below and at 4096 from above, as an array over the spans. -/
def loArr (a1 : S8x1024.Idx → BitVec 32) : S8x1024.Idx → BitVec 32 :=
  minsi (maxsi a1 (broadcastInDim S8x1024 ![] bcast_S_S8x1024 (constantI S_ 32 0#32)))
    (broadcastInDim S8x1024 ![] bcast_S_S8x1024 (constantI S_ 32 4096#32))

/-- Every end word clamped at zero from below, at 32 past the clamped begin and at 4096 from above. -/
def hiArr (a1 a2 : S8x1024.Idx → BitVec 32) : S8x1024.Idx → BitVec 32 :=
  minsi
    (minsi (maxsi a2 (broadcastInDim S8x1024 ![] bcast_S_S8x1024 (constantI S_ 32 0#32)))
      (addi (loArr a1) (broadcastInDim S8x1024 ![] bcast_S_S8x1024 (constantI S_ 32 32#32))))
    (broadcastInDim S8x1024 ![] bcast_S_S8x1024 (constantI S_ 32 4096#32))

/-- At a span the clamped-begin array holds the specification's clamped begin of that span's word. -/
theorem loArr_apply (a1 : S8x1024.Idx → BitVec 32) (i : S8x1024.Idx) : loArr a1 i = Cert.Pool.kb (a1 i) := rfl

/-- At a span the clamped-end array holds the specification's clamped end of that span's two words. -/
theorem hiArr_apply (a1 a2 : S8x1024.Idx → BitVec 32) (i : S8x1024.Idx) :
    hiArr a1 a2 i = Cert.Pool.ke (a1 i) (a2 i) := rfl

/-- The packed table is the two clamped arrays, each given a last axis of extent 1, joined along that axis. -/
theorem table_eq (c : Dev nD) :
    (V m c main_v13 : S8x1024x2.Idx → BitVec 32)
      = concatenate S8x1024x2 2
          [⟨S8x1024x1, broadcastInDim S8x1024x1 ![0, 1] bcast_S8x1024_S8x1024x1_0_1
              (loArr (m ((c : Thread nD τ).loc main_arg1) : S8x1024.Idx → BitVec 32))⟩,
           ⟨S8x1024x1, broadcastInDim S8x1024x1 ![0, 1] bcast_S8x1024_S8x1024x1_0_1
              (hiArr (m ((c : Thread nD τ).loc main_arg1) : S8x1024.Idx → BitVec 32)
                (m ((c : Thread nD τ).loc main_arg2) : S8x1024.Idx → BitVec 32))⟩]
          concatenates_S8x1024x1_S8x1024x1_S8x1024x2_d2 := by
  dsimp only [Gen.V, Gen.hostOps0]
  after_results
  rfl

/-- Column 0 of the packed table at (batch, span) is the clamped begin word of that span. -/
theorem be_lo (c : Dev nD) (b : Fin 8) (s : Fin 1024) :
    (V m c main_v13 : S8x1024x2.Idx → BitVec 32) (ix3 (n0 := 8) (n1 := 1024) (n2 := 2) b s 0)
      = Cert.Pool.kb ((m ((c : Thread nD τ).loc main_arg1) : S8x1024.Idx → BitVec 32) (ix2 (n0 := 8) (n1 := 1024) b s)) := by
  rw [table_eq]
  -- the last coordinate 0 falls in the first of the two joined pieces
  refine (concatenate_pair_apply_left (t := S8x1024x2) (s₁ := S8x1024x1) (s₂ := S8x1024x1) 2 _ _ _ (ix3 (n0 := 8) (n1 := 1024) (n2 := 2) b s 0) rfl
    (ix3 (n0 := 8) (n1 := 1024) (n2 := 1) b s 0) ?_).trans ?_
  · intro a; fin_cases a <;> rfl
  -- the added unit axis is dropped: the piece at (b, s, 0) is the array at (b, s)
  refine (broadcastInDim_apply _ bcast_S8x1024_S8x1024x1_0_1 _ _ (ix2 (n0 := 8) (n1 := 1024) b s) ?_).trans ?_
  · intro a; fin_cases a <;> rfl
  exact loArr_apply _ _

/-- Column 1 of the packed table at (batch, span) is the clamped end word of that span. -/
theorem be_hi (c : Dev nD) (b : Fin 8) (s : Fin 1024) :
    (V m c main_v13 : S8x1024x2.Idx → BitVec 32) (ix3 (n0 := 8) (n1 := 1024) (n2 := 2) b s 1)
      = Cert.Pool.ke ((m ((c : Thread nD τ).loc main_arg1) : S8x1024.Idx → BitVec 32) (ix2 (n0 := 8) (n1 := 1024) b s))
          ((m ((c : Thread nD τ).loc main_arg2) : S8x1024.Idx → BitVec 32) (ix2 (n0 := 8) (n1 := 1024) b s)) := by
  rw [table_eq]
  -- the last coordinate 1 is past the first piece's extent 1: it falls in the second piece, at 0 there
  refine (concatenate_pair_apply_right (t := S8x1024x2) (s₁ := S8x1024x1) (s₂ := S8x1024x1) 2 _ _ _ (ix3 (n0 := 8) (n1 := 1024) (n2 := 2) b s 1) rfl rfl
    (ix3 (n0 := 8) (n1 := 1024) (n2 := 1) b s 0) ?_ ?_).trans ?_
  · intro a ha; fin_cases a
    · rfl
    · rfl
    · exact absurd rfl ha
  · rfl
  refine (broadcastInDim_apply _ bcast_S8x1024_S8x1024x1_0_1 _ _ (ix2 (n0 := 8) (n1 := 1024) b s) ?_).trans ?_
  · intro a; fin_cases a <;> rfl
  exact hiArr_apply _ _ _

end Cert.KernelIdeal.Host

end
-- ==== Proof.KAlg.lean ====
/-
  The kernel's side of the window arithmetic, on words.

  On the domain `b ≤ e ≤ 4096` the host code's clamped words are the window's ends: `kb b` is `lo b` and `ke b e` is
  `hi b e`, with no wrap anywhere. The kernel tests membership of a position `t < 4096` by ONE unsigned comparison,
  `t - kb <ᵤ ke - kb`: when `t` is below the window's first position the difference wraps to a word above `2^32 - 4096`,
  far above the width (at most 32), so the test holds exactly when `lo b ≤ t < hi b e`. The indicator, a 0/1 word
  read as a number, multiplies the feature: the row's products sum to the window sum, whether the 4096 positions are
  summed at once or as two tiles of 2048. The divisor is the width read signed, raised to 1.
-/
import proofs.«410348_j53592601919893_3_alg».proof.Proof.Spec
import Idealize.ShloMosaic.PureOps.Ideal.Laws

noncomputable section

open scoped BigOperators

namespace Cert.Pool

open Idealize.ShloMosaic Idealize.ShloMosaic.ValueIdx

/-- The f32 word of 1.0 is the real number 1. -/
theorem one_f32 : Ideal.ofBits .f32 0x3F800000#32 = 1 := by
  simp [Ideal.ofBits, Ideal.ieee, -EReal.coe_mul]; norm_num

/-- The window's first position does not exceed its end, which does not exceed 4096. -/
theorem lo_le_hi (b e : BitVec 32) (hd : InDom b e) : lo b ≤ hi b e := by
  unfold InDom at hd
  unfold hi lo
  omega
theorem hi_le (b e : BitVec 32) (hd : InDom b e) : hi b e ≤ 4096 := by
  unfold InDom at hd
  unfold hi lo
  omega
theorem hi_le_lo_add (b e : BitVec 32) : hi b e ≤ lo b + 32 := by
  unfold hi
  omega

/-- A word whose signed reading is not negative reads the same unsigned. -/
private theorem toNat_of_nonneg (x : BitVec 32) (h : 0 ≤ x.toInt) : (x.toNat : ℤ) = x.toInt := by
  have hx := BitVec.toInt_eq_toNat_cond x
  have hlt := x.isLt
  split at hx <;> omega

/-- A word below 2^31 reads the same signed. -/
private theorem toInt_of_lt (x : BitVec 32) (h : x.toNat < 2147483648) : x.toInt = (x.toNat : ℤ) := by
  have hx := BitVec.toInt_eq_toNat_cond x
  split at hx <;> omega

/-- The signed maximum of two words reads as the maximum of their signed readings. -/
private theorem maxsi_toInt (x y : BitVec 32) : (IntOp.maxsi x y).toInt = max x.toInt y.toInt := by
  unfold IntOp.maxsi
  by_cases c : y.slt x = true
  · rw [if_pos c]
    have c' : y.toInt < x.toInt := by simpa [BitVec.slt] using c
    omega
  · rw [if_neg c]
    have c' : ¬ y.toInt < x.toInt := by simpa [BitVec.slt] using c
    omega

/-- The signed minimum of two words reads as the minimum of their signed readings. -/
private theorem minsi_toInt (x y : BitVec 32) : (IntOp.minsi x y).toInt = min x.toInt y.toInt := by
  unfold IntOp.minsi
  by_cases c : x.slt y = true
  · rw [if_pos c]
    have c' : x.toInt < y.toInt := by simpa [BitVec.slt] using c
    omega
  · rw [if_neg c]
    have c' : ¬ x.toInt < y.toInt := by simpa [BitVec.slt] using c
    omega

/-- The clamped begin word, read signed: the begin clamped to the interval from 0 to 4096. No domain is needed. -/
private theorem kb_toInt (b : BitVec 32) : (kb b).toInt = min (max b.toInt 0) 4096 := by
  unfold kb
  rw [minsi_toInt, maxsi_toInt]
  have h0 : (0#32).toInt = 0 := by decide
  have h1 : (4096#32).toInt = 4096 := by decide
  rw [h0, h1]

/-- Adding 32 to the clamped begin word does not wrap: the word is at most 4096. -/
private theorem kb_add_toInt (b : BitVec 32) : (IntOp.addi (kb b) 32#32).toInt = (kb b).toInt + 32 := by
  have hk := kb_toInt b
  have hn := toNat_of_nonneg (kb b) (by omega)
  unfold IntOp.addi
  have hs : ((kb b) + 32#32).toNat = (kb b).toNat + 32 := by
    rw [BitVec.toNat_add]
    have h32 : (32#32).toNat = 32 := by decide
    rw [h32]
    omega
  rw [toInt_of_lt _ (by omega), hs]
  omega

/-- The clamped end word, read signed. No domain is needed. -/
private theorem ke_toInt (b e : BitVec 32) :
    (ke b e).toInt = min (min (max e.toInt 0) ((kb b).toInt + 32)) 4096 := by
  unfold ke
  rw [minsi_toInt, minsi_toInt, maxsi_toInt, kb_add_toInt]
  have h0 : (0#32).toInt = 0 := by decide
  have h1 : (4096#32).toInt = 4096 := by decide
  rw [h0, h1]

/-- The kernel's clamped begin word is the window's first position. -/
theorem kb_toNat (b e : BitVec 32) (hd : InDom b e) : (kb b).toNat = lo b := by
  unfold InDom at hd
  have hk := kb_toInt b
  have hn := toNat_of_nonneg (kb b) (by omega)
  unfold lo
  omega

/-- The kernel's clamped end word is one past the window's last position. -/
theorem ke_toNat (b e : BitVec 32) (hd : InDom b e) : (ke b e).toNat = hi b e := by
  have hkb := kb_toNat b e hd
  unfold InDom at hd
  have hk := kb_toInt b
  have hn := toNat_of_nonneg (kb b) (by omega)
  have he := ke_toInt b e
  have hen := toNat_of_nonneg (ke b e) (by omega)
  unfold hi
  unfold lo at hkb ⊢
  omega

/-- The kernel's membership test at position `t`: one unsigned comparison of `t - kb` with the width. -/
def kmaskw (b e : BitVec 32) (t : ℕ) : BitVec 1 :=
  IntOp.cmpi .ult (IntOp.subi (BitVec.ofNat 32 t) (kb b)) (IntOp.subi (ke b e) (kb b))

/-- A one-bit word made from a truth value is the word 1 exactly when the value is true. -/
private theorem ofBool_eq_one (c : Bool) : BitVec.ofBool c = 1#1 ↔ c = true := by
  cases c <;> decide

/-- The test holds exactly on the window. -/
theorem kmaskw_iff (b e : BitVec 32) (hd : InDom b e) (t : ℕ) (ht : t < 4096) :
    kmaskw b e t = 1#1 ↔ (lo b ≤ t ∧ t < hi b e) := by
  have h1 := kb_toNat b e hd
  have h2 := ke_toNat b e hd
  have h3 := lo_le_hi b e hd
  have h4 := hi_le b e hd
  have h5 := hi_le_lo_add b e
  unfold kmaskw IntOp.cmpi IntOp.subi
  simp only
  rw [ofBool_eq_one]
  unfold BitVec.ult
  rw [decide_eq_true_iff, BitVec.toNat_sub, BitVec.toNat_sub, BitVec.toNat_ofNat, h1, h2]
  omega

/-- The width word, read signed, is the number of positions in the window. -/
theorem kwidth_toInt (b e : BitVec 32) (hd : InDom b e) :
    (IntOp.subi (ke b e) (kb b)).toInt = ((hi b e - lo b : ℕ) : ℤ) := by
  have h1 := kb_toNat b e hd
  have h2 := ke_toNat b e hd
  have h3 := lo_le_hi b e hd
  have h4 := hi_le b e hd
  unfold IntOp.subi
  have hs : (ke b e - kb b).toNat = hi b e - lo b := by
    rw [BitVec.toNat_sub, h1, h2]
    omega
  rw [toInt_of_lt _ (by omega), hs]

/-- A one-bit word widened to 32 bits and read as a number. -/
def bitval (c : BitVec 1) : EReal := ((((c.setWidth 32).toInt : ℤ) : ℝ) : EReal)

/-- It multiplies as the condition selects. -/
theorem bitval_mul (c : BitVec 1) (y : EReal) : bitval c * y = if c = 1#1 then y else 0 := by
  have h0 : ((0#1).setWidth 32).toInt = 0 := by decide
  have h1 : ((1#1).setWidth 32).toInt = 1 := by decide
  have h01 : (0#1) ≠ 1#1 := by decide
  rcases BitVec.eq_zero_or_eq_one c with hc | hc
  · subst hc
    unfold bitval
    rw [h0, if_neg h01]
    simp
  · subst hc
    unfold bitval
    rw [h1, if_pos rfl]
    simp

/-- A sum over 4096 positions is the sum over the first 2048 plus the sum over the last 2048. -/
theorem sum_two_tiles (f : Fin 4096 → EReal) :
    ∑ t : Fin 4096, f t
      = (∑ j : Fin 2048, f ⟨j.val, by have := j.isLt; omega⟩) + ∑ j : Fin 2048, f ⟨2048 + j.val, by have := j.isLt; omega⟩ := by
  exact Fin.sum_univ_add (a := 2048) (b := 2048) f

/-- The two tiles' indicator-weighted sums add up to the window sum. -/
theorem ksum (b e : BitVec 32) (hd : InDom b e) (x : Fin 4096 → EReal) :
    (∑ j : Fin 2048, bitval (kmaskw b e j.val) * x ⟨j.val, by have := j.isLt; omega⟩)
      + (∑ j : Fin 2048, bitval (kmaskw b e (2048 + j.val)) * x ⟨2048 + j.val, by have := j.isLt; omega⟩)
      = wsum b e x := by
  refine (sum_two_tiles (fun t : Fin 4096 => bitval (kmaskw b e t.val) * x t)).symm.trans ?_
  unfold wsum
  refine Finset.sum_congr rfl (fun t _ => ?_)
  rw [bitval_mul]
  have h := kmaskw_iff b e hd t.val t.isLt
  by_cases hc : kmaskw b e t.val = 1#1
  · rw [if_pos hc, if_pos (h.mp hc)]
  · rw [if_neg hc, if_neg (fun h' => hc (h.mpr h'))]

/-- The kernel's divisor: the width read signed as a number, raised to 1. -/
theorem kcnt (b e : BitVec 32) (hd : InDom b e) :
    max ((((IntOp.subi (ke b e) (kb b)).toInt : ℤ) : ℝ) : EReal) (Ideal.ofBits .f32 0x3F800000#32) = wcnt b e := by
  rw [kwidth_toInt b e hd, one_f32, Int.cast_natCast]
  rfl

end Cert.Pool

end
-- ==== Proof.KPay.lean ====
/-
  The kernel body's arithmetic at one output element.

  For one batch the body runs twice, once per tile of 2048 positions. Each run forms a 1024 × 2048 matrix of zeros and
  ones — entry (span, column) is the single unsigned comparison `(t − kb) <ᵤ (ke − kb)` at the position
  `t = tile · 2048 + column`, with `kb`, `ke` the span's clamped begin and end words — and multiplies it into the
  tile of features. Read at (span `s`, feature `d`) the product is the sum over the tile's columns of indicator times
  feature. The first run stores that sum, the second adds its own sum to it, and then divides by the width
  `ke − kb`, read signed as a number and raised to 1. With the two tiles laid side by side as one row of 4096 values,
  the two sums make up the window sum and the divisor is the window's count: the element is the pooled mean.
-/
import proofs.«410348_j53592601919893_3_alg».proof.Proof.Gen.KernelIdeal.Skeleton
import proofs.«410348_j53592601919893_3_alg».proof.Proof.Spec
import proofs.«410348_j53592601919893_3_alg».proof.Proof.KAlg
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The clamped begin word of span `s`: column 0 of the begin/end block. -/
theorem pay2_at (x0 : Vec Ideal S1x1024x2 .i32) (s : Fin 1024) :
    k0_pay2 (F := Ideal) x0 (ix2 (n0 := 1024) (n1 := 1) s 0) = x0 (ix3 (n0 := 1) (n1 := 1024) (n2 := 2) 0 s 0) := by
  unfold k0_pay2 k0_pay1
  refine (slice2_axis1_apply 0 _ _ s 0 0 rfl).trans ?_
  exact shapeCast_1ab_ab_apply _ _ s 0

/-- The clamped end word of span `s`: column 1 of the begin/end block. -/
theorem pay3_at (x0 : Vec Ideal S1x1024x2 .i32) (s : Fin 1024) :
    k0_pay3 (F := Ideal) x0 (ix2 (n0 := 1024) (n1 := 1) s 0) = x0 (ix3 (n0 := 1) (n1 := 1024) (n2 := 2) 0 s 1) := by
  unfold k0_pay3 k0_pay1
  refine (slice2_axis1_apply 1 _ _ s 0 1 rfl).trans ?_
  exact shapeCast_1ab_ab_apply _ _ s 1

/-! The product contracts the indicator's column axis against the feature tile's row axis: at output (row, column)
    and contraction position `k` the left factor sits at (row, k) and the right factor at (k, column). -/

theorem lhs_axis0 (j : S1024x256.Idx) (k : dot_S1024x2048_S2048x256_S1024x256_1_0_0_1_n_n.contr.Idx) :
    (dot_S1024x2048_S2048x256_S1024x256_1_0_0_1_n_n.lhsIdx j k 0).val = (j 0).val := by
  unfold DotDims.lhsIdx
  rw [dif_neg (show ¬ (0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

theorem lhs_axis1 (j : S1024x256.Idx) (k : dot_S1024x2048_S2048x256_S1024x256_1_0_0_1_n_n.contr.Idx) :
    (dot_S1024x2048_S2048x256_S1024x256_1_0_0_1_n_n.lhsIdx j k 1).val = (k ⟨0, by decide⟩).val :=
  dot_S1024x2048_S2048x256_S1024x256_1_0_0_1_n_n.lhsIdx_val_of_single (cl := 1) rfl j k

theorem rhs_axis0 (j : S1024x256.Idx) (k : dot_S1024x2048_S2048x256_S1024x256_1_0_0_1_n_n.contr.Idx) :
    (dot_S1024x2048_S2048x256_S1024x256_1_0_0_1_n_n.rhsIdx j k 0).val = (k ⟨0, by decide⟩).val :=
  dot_S1024x2048_S2048x256_S1024x256_1_0_0_1_n_n.rhsIdx_val_of_single (cr := 0) rfl j k

theorem rhs_axis1 (j : S1024x256.Idx) (k : dot_S1024x2048_S2048x256_S1024x256_1_0_0_1_n_n.contr.Idx) :
    (dot_S1024x2048_S2048x256_S1024x256_1_0_0_1_n_n.rhsIdx j k 1).val = (j 1).val := by
  unfold DotDims.rhsIdx
  rw [dif_neg (show ¬ (1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

theorem lhsIdx_eq (s : Fin 1024) (d : Fin 256) (j : Fin 2048) :
    dot_S1024x2048_S2048x256_S1024x256_1_0_0_1_n_n.lhsIdx (ix2 (n0 := 1024) (n1 := 256) s d)
        ((contrEquiv1 dot_S1024x2048_S2048x256_S1024x256_1_0_0_1_n_n 2048 rfl rfl).symm j)
      = ix2 (n0 := 1024) (n1 := 2048) s j :=
  funext fun a => Fin.ext (match a with
    | ⟨0, _⟩ => lhs_axis0 _ _
    | ⟨1, _⟩ => (lhs_axis1 _ _).trans (contrEquiv1_symm_val dot_S1024x2048_S2048x256_S1024x256_1_0_0_1_n_n 2048 rfl rfl j))

theorem rhsIdx_eq (s : Fin 1024) (d : Fin 256) (j : Fin 2048) :
    dot_S1024x2048_S2048x256_S1024x256_1_0_0_1_n_n.rhsIdx (ix2 (n0 := 1024) (n1 := 256) s d)
        ((contrEquiv1 dot_S1024x2048_S2048x256_S1024x256_1_0_0_1_n_n 2048 rfl rfl).symm j)
      = ix2 (n0 := 2048) (n1 := 256) j d :=
  funext fun a => Fin.ext (match a with
    | ⟨0, _⟩ => (rhs_axis0 _ _).trans (contrEquiv1_symm_val dot_S1024x2048_S2048x256_S1024x256_1_0_0_1_n_n 2048 rfl rfl j)
    | ⟨1, _⟩ => rhs_axis1 _ _)

/-- The position word of column `q` of tile `n`: `n * 2048 + q`, with no wrap. -/
theorem pos_word (n q : ℕ) (hn : n < 2) (hq : q < 2048) :
    IntOp.addi (Scalar.muli (BitVec.ofNat 32 n) 2048#32) (BitVec.ofNat 32 q) = BitVec.ofNat 32 (n * 2048 + q) := by
  apply BitVec.eq_of_toNat_eq
  show ((BitVec.ofNat 32 n) * 2048#32 + BitVec.ofNat 32 q).toNat = _
  simp only [BitVec.toNat_add, BitVec.toNat_mul, BitVec.toNat_ofNat]
  omega

/-- A column broadcast along the rows' positions reads the column's entry of that row. -/
theorem bcast_col_2048 {α : Type} (v : S1024x1.Idx → α) (p : Fin 1024) (q : Fin 2048) :
    broadcastTo S1024x2048 v broadcasts_S1024x1_S1024x2048 (ix2 (n0 := 1024) (n1 := 2048) p q)
      = v (ix2 (n0 := 1024) (n1 := 1) p 0) :=
  broadcastTo_apply v _ _ _ (fun a => match a with | ⟨0, _⟩ => rfl | ⟨1, _⟩ => rfl)

theorem bcast_col_256 {α : Type} (v : S1024x1.Idx → α) (p : Fin 1024) (q : Fin 256) :
    broadcastTo S1024x256 v broadcasts_S1024x1_S1024x256 (ix2 (n0 := 1024) (n1 := 256) p q)
      = v (ix2 (n0 := 1024) (n1 := 1) p 0) :=
  broadcastTo_apply v _ _ _ (fun a => match a with | ⟨0, _⟩ => rfl | ⟨1, _⟩ => rfl)

/-- An entry of the indicator matrix: the one-bit comparison of the two differences, widened and read as a number. -/
theorem ind_entry (X Y Z : IVec S1024x2048 32) (p : S1024x2048.Idx) :
    (truncf .bf16 (sitofp (F := Ideal) .f32 (extui 32 (cmpi .ult (subi X Y) Z) natLt_1_32)) bitsLt_bf16_f32) p
      = Cert.Pool.bitval (IntOp.cmpi .ult (IntOp.subi (X p) (Y p)) (Z p)) := rfl

theorem pay4_at (i : grid0.Coords) (x0 : Vec Ideal S1x1024x2 .i32) (xt : Vec Ideal S1x2048x256 .f32)
    (s : Fin 1024) (d : Fin 256) (b e : BitVec 32)
    (hlo : x0 (ix3 (n0 := 1) (n1 := 1024) (n2 := 2) 0 s 0) = Cert.Pool.kb b)
    (hhi : x0 (ix3 (n0 := 1) (n1 := 1024) (n2 := 2) 0 s 1) = Cert.Pool.ke b e) :
    k0_pay4 (F := Ideal) i x0 xt (ix2 (n0 := 1024) (n1 := 256) s d)
      = ∑ j : Fin 2048, Cert.Pool.bitval (Cert.Pool.kmaskw b e ((i 1).val * 2048 + j.val))
          * xt (ix3 (n0 := 1) (n1 := 2048) (n2 := 256) 0 j d) := by
  unfold k0_pay4
  refine (Ideal.matmul_constant_zero_apply _ none _ _ _).trans ?_
  refine (Equiv.sum_comp (contrEquiv1 dot_S1024x2048_S2048x256_S1024x256_1_0_0_1_n_n 2048 rfl rfl).symm _).symm.trans ?_
  refine Finset.sum_congr rfl fun j _ => ?_
  rw [lhsIdx_eq s d j, rhsIdx_eq s d j]
  refine congrArg₂ (· * ·) ?_ ?_
  · refine (ind_entry _ _ _ _).trans ?_
    unfold Cert.Pool.kmaskw
    refine congrArg Cert.Pool.bitval (congrArg₂ (IntOp.cmpi .ult) (congrArg₂ IntOp.subi ?_ ?_) ?_)
    · refine (broadcastTo_1b_ab_apply _ _ s j).trans ?_
      refine (congrArg (IntOp.addi _) (iota_single_apply .tc S1x2048 32 1 iota_S1x2048_d1_w32 (ix2 (n0 := 1) (n1 := 2048) 0 j))).trans ?_
      exact pos_word _ _ (i 1).isLt j.isLt
    · exact (bcast_col_2048 _ s j).trans ((pay2_at x0 s).trans hlo)
    · exact (bcast_col_2048 _ s j).trans (congrArg₂ IntOp.subi ((pay3_at x0 s).trans hhi) ((pay2_at x0 s).trans hlo))
  · exact shapeCast_1ab_ab_apply _ _ j d

/-- What the first tile stores: its partial sums, entry for entry. -/
theorem pay5_at (i : grid0.Coords) (x0 : Vec Ideal S1x1024x2 .i32) (xt : Vec Ideal S1x2048x256 .f32)
    (s : Fin 1024) (d : Fin 256) :
    k0_pay5 (F := Ideal) i x0 xt (ix3 (n0 := 1) (n1 := 1024) (n2 := 256) 0 s d)
      = k0_pay4 (F := Ideal) i x0 xt (ix2 (n0 := 1024) (n1 := 256) s d) := by
  unfold k0_pay5
  exact shapeCast_ab_1ab_apply _ _ 0 s d

/-- What the second tile stores first: the accumulator plus its own partial sums. -/
theorem pay6_at (i : grid0.Coords) (x0 : Vec Ideal S1x1024x2 .i32) (xt : Vec Ideal S1x2048x256 .f32)
    (acc : Vec Ideal S1x1024x256 .f32) (s : Fin 1024) (d : Fin 256) :
    k0_pay6 (F := Ideal) i x0 xt acc (ix3 (n0 := 1) (n1 := 1024) (n2 := 256) 0 s d)
      = acc (ix3 (n0 := 1) (n1 := 1024) (n2 := 256) 0 s d)
          + k0_pay4 (F := Ideal) i x0 xt (ix2 (n0 := 1024) (n1 := 256) s d) := by
  unfold k0_pay6
  refine (shapeCast_ab_1ab_apply _ _ 0 s d).trans ?_
  refine (addf_apply _ _ _).trans ?_
  exact congrArg (· + k0_pay4 (F := Ideal) i x0 xt (ix2 (n0 := 1024) (n1 := 256) s d))
    (shapeCast_1ab_ab_apply acc _ s d)

/-- What the second tile stores last: the accumulator divided by the span's width, read signed as a number and
    raised to 1. -/
theorem pay7_at (x0 : Vec Ideal S1x1024x2 .i32) (acc : Vec Ideal S1x1024x256 .f32) (s : Fin 1024) (d : Fin 256) :
    k0_pay7 (F := Ideal) x0 acc (ix3 (n0 := 1) (n1 := 1024) (n2 := 256) 0 s d)
      = Ideal.div (acc (ix3 (n0 := 1) (n1 := 1024) (n2 := 256) 0 s d))
          (max ((((IntOp.subi (x0 (ix3 (n0 := 1) (n1 := 1024) (n2 := 2) 0 s 1))
              (x0 (ix3 (n0 := 1) (n1 := 1024) (n2 := 2) 0 s 0))).toInt : ℤ) : ℝ) : EReal)
            (Ideal.ofBits .f32 0x3F800000#32)) := by
  unfold k0_pay7
  refine (shapeCast_ab_1ab_apply _ _ 0 s d).trans ?_
  refine (divf_apply _ _ _).trans ?_
  refine congrArg₂ Ideal.div (shapeCast_1ab_ab_apply acc _ s d) ?_
  refine (bcast_col_256 _ s d).trans ?_
  refine (maximumf_apply _ _ _).trans ?_
  refine congrArg₂ max ?_ rfl
  exact congrArg (fun w : BitVec 32 => (((w.toInt : ℤ) : ℝ) : EReal))
    (congrArg₂ IntOp.subi (pay3_at x0 s) (pay2_at x0 s))

/-- One output element after the two tiles of a batch: the pooled mean of the span's window. -/
theorem pay_pool [Cert.KernelIdeal.Facts] (i0 i1 : grid0.Coords) (h0 : (i0 1).val = 0) (h1 : (i1 1).val = 1)
    (x0 : Vec Ideal S1x1024x2 .i32) (xa xb : Vec Ideal S1x2048x256 .f32)
    (s : Fin 1024) (d : Fin 256) (b e : BitVec 32) (hd : Cert.Pool.InDom b e)
    (hlo : x0 (ix3 (n0 := 1) (n1 := 1024) (n2 := 2) 0 s 0) = Cert.Pool.kb b)
    (hhi : x0 (ix3 (n0 := 1) (n1 := 1024) (n2 := 2) 0 s 1) = Cert.Pool.ke b e)
    (x : Fin 4096 → EReal)
    (hxa : ∀ j : Fin 2048, xa (ix3 (n0 := 1) (n1 := 2048) (n2 := 256) 0 j d) = x ⟨j.val, by have := j.isLt; omega⟩)
    (hxb : ∀ j : Fin 2048, xb (ix3 (n0 := 1) (n1 := 2048) (n2 := 256) 0 j d) = x ⟨2048 + j.val, by have := j.isLt; omega⟩) :
    k0_pay7 (F := Ideal) x0 (k0_pay6 (F := Ideal) i1 x0 xb (k0_pay5 (F := Ideal) i0 x0 xa)) (ix3 (n0 := 1) (n1 := 1024) (n2 := 256) 0 s d)
      = Cert.Pool.pool1 b e x := by
  refine (pay7_at x0 _ s d).trans ?_
  rw [hlo, hhi, Cert.Pool.kcnt b e hd, pay6_at, pay5_at, pay4_at i0 x0 xa s d b e hlo hhi,
    pay4_at i1 x0 xb s d b e hlo hhi, h0, h1]
  unfold Cert.Pool.pool1
  refine congrArg (fun t => Ideal.div t (Cert.Pool.wcnt b e)) ?_
  refine Eq.trans (congrArg₂ (· + ·) (Finset.sum_congr rfl fun j _ => ?_) (Finset.sum_congr rfl fun j _ => ?_))
    (Cert.Pool.ksum b e hd x)
  · rw [hxa j, Nat.zero_mul, Nat.zero_add]
  · rw [hxb j, Nat.one_mul]

end Cert.KernelIdeal.Pay

end
-- ==== Proof.KValue.lean ====
/-
  The idealized kernel's result array as one function of the argument arrays.

  Point `2B + 1` (the second tile of batch `B`) writes the output block of batch `B` back. What it writes is, at
  (span, feature), the quotient by the window length of the first tile's indicator product plus the second tile's:
  the begin/end block of both points is row `B` of the clamped-words array, the feature blocks are positions
  0…2047 and 2048…4095 of batch `B`, so on the domain the element is the pooled mean of the span's window. The 8
  written blocks are the 8 batches of the result, so they cover it, and the array ends holding the pooled means.
-/
import proofs.«410348_j53592601919893_3_alg».proof.Proof.Body
import proofs.«410348_j53592601919893_3_alg».proof.Proof.KHost
import proofs.«410348_j53592601919893_3_alg».proof.Proof.KPay
import proofs.«410348_j53592601919893_3_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

section AnyInstance

variable {F : FTy → Type} [FloatOps F]
variable (m : (ℓ : Loc nD τ sig) → Buf (Elt F) ℓ)

/-- The index maps at an odd point `t` and at the even point before it, decided over the grid: the three windows
    are on batch `t / 2`; the feature window is on tile 1 at `t` and on tile 0 at the point before. -/
theorem idx_facts : ∀ t : Fin cfg0.N, t.val % 2 = 1 →
    win0_2.index t (0 : Fin 3) = t.val / 2 ∧ win0_2.index t (1 : Fin 3) = 0 ∧ win0_2.index t (2 : Fin 3) = 0
    ∧ win0_0.index t (0 : Fin 3) = t.val / 2 ∧ win0_0.index t (1 : Fin 3) = 0 ∧ win0_0.index t (2 : Fin 3) = 0
    ∧ win0_0.index (prevPt t) (0 : Fin 3) = t.val / 2 ∧ win0_0.index (prevPt t) (1 : Fin 3) = 0 ∧ win0_0.index (prevPt t) (2 : Fin 3) = 0
    ∧ win0_1.index t (0 : Fin 3) = t.val / 2 ∧ win0_1.index t (1 : Fin 3) = 1 ∧ win0_1.index t (2 : Fin 3) = 0
    ∧ win0_1.index (prevPt t) (0 : Fin 3) = t.val / 2 ∧ win0_1.index (prevPt t) (1 : Fin 3) = 0 ∧ win0_1.index (prevPt t) (2 : Fin 3) = 0
    ∧ ((grid0.coords t) 1).val = 1 ∧ ((grid0.coords (prevPt t)) 1).val = 0 :=
  (by decide +kernel : ∀ t : Fin grid0.N, t.val % 2 = 1 → _)

/-- The begin/end block at a point on batch `B`, read at (span, column): the clamped-words array at (B, span, column). -/
theorem read_be (c : Dev nD) (t : Fin cfg0.N) (B : Fin 8) (hB : win0_0.index t (0 : Fin 3) = B.val)
    (h1 : win0_0.index t (1 : Fin 3) = 0) (h2 : win0_0.index t (2 : Fin 3) = 0) (s : Fin 1024) (k : Fin 2) :
    iblk m c 0 t (ix3 (n0 := 1) (n1 := 1024) (n2 := 2) 0 s k)
      = (V m c main_v13 : S8x1024x2.Idx → BitVec 32) (ix3 (n0 := 8) (n1 := 1024) (n2 := 2) B s k) := by
  show V m c main_v13 (((cfg0.win 0).blk t).view.emb (ix3 (n0 := 1) (n1 := 1024) (n2 := 2) 0 s k)) = _
  refine congrArg _ (funext fun a => Fin.ext ?_)
  match a with
  | ⟨0, _⟩ => show win0_0.index t (0 : Fin 3) * 1 + 1 * 0 = B.val; omega
  | ⟨1, _⟩ => show win0_0.index t (1 : Fin 3) * 1024 + 1 * s.val = s.val; omega
  | ⟨2, _⟩ => show win0_0.index t (2 : Fin 3) * 2 + 1 * k.val = k.val; omega

/-- The feature block at a point on batch `B`, read at (row, feature): the features at (B, position, feature), the
    position the tile's offset plus the row. -/
theorem read_feat (c : Dev nD) (t : Fin cfg0.N) (B : Fin 8) (hB : win0_1.index t (0 : Fin 3) = B.val)
    (h2 : win0_1.index t (2 : Fin 3) = 0) (j : Fin 2048) (d : Fin 256) (q : Fin 4096)
    (hq : q.val = win0_1.index t (1 : Fin 3) * 2048 + j.val) :
    iblk m c 1 t (ix3 (n0 := 1) (n1 := 2048) (n2 := 256) 0 j d)
      = (V m c main_arg0 : S8x4096x256.Idx → Elt F .f32) (ix3 (n0 := 8) (n1 := 4096) (n2 := 256) B q d) := by
  show V m c main_arg0 (((cfg0.win 1).blk t).view.emb (ix3 (n0 := 1) (n1 := 2048) (n2 := 256) 0 j d)) = _
  refine congrArg _ (funext fun a => Fin.ext ?_)
  match a with
  | ⟨0, _⟩ => show win0_1.index t (0 : Fin 3) * 1 + 1 * 0 = B.val; omega
  | ⟨1, _⟩ => show win0_1.index t (1 : Fin 3) * 2048 + 1 * j.val = q.val; omega
  | ⟨2, _⟩ => show win0_1.index t (2 : Fin 3) * 256 + 1 * d.val = d.val; omega

/-- An index of the result array is in point `t`'s output block iff each coordinate is in the block's range. -/
theorem mem_blk (t : Fin cfg0.N) (i : S8x1024x256.Idx) :
    i ∈ ((cfg0.win 2).blk t).view.set ↔ ∀ a : Fin 3, win0_2.index t a * S1x1024x256.size a ≤ (i a).val
      ∧ (i a).val < win0_2.index t a * S1x1024x256.size a + S1x1024x256.size a := by
  show i ∈ ((View.whole main_v14).slice (win0_2.rect t)).set ↔ _
  rw [View.set_slice_whole, Rect.mem_set_unit]
  exact Iff.rfl

/-- Every index of the result array is in the block some second tile writes back: batch `b`'s in point `2b + 1`'s. -/
theorem cover (i : S8x1024x256.Idx) :
    ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 256 := (i 2).isLt
  have hlt : 2 * (i 0).val + 1 < cfg0.N := by rw [show cfg0.N = 16 from N_0]; omega
  have hodd : (⟨2 * (i 0).val + 1, hlt⟩ : Fin cfg0.N).val % 2 = 1 := by dsimp only; omega
  obtain ⟨e0, e1, e2, -⟩ := idx_facts ⟨2 * (i 0).val + 1, hlt⟩ hodd
  refine ⟨⟨2 * (i 0).val + 1, hlt⟩, (flush0_2 _).mpr hodd, ?_⟩
  rw [mem_blk]
  intro a
  match a with
  | ⟨0, _⟩ =>
    show win0_2.index _ (0 : Fin 3) * 1 ≤ (i 0).val ∧ (i 0).val < win0_2.index _ (0 : Fin 3) * 1 + 1
    dsimp only at e0; omega
  | ⟨1, _⟩ =>
    show win0_2.index _ (1 : Fin 3) * 1024 ≤ (i 1).val ∧ (i 1).val < win0_2.index _ (1 : Fin 3) * 1024 + 1024
    omega
  | ⟨2, _⟩ =>
    show win0_2.index _ (2 : Fin 3) * 256 ≤ (i 2).val ∧ (i 2).val < win0_2.index _ (2 : Fin 3) * 256 + 256
    omega

end AnyInstance

/-! ## At the ideal instance -/

variable (m : (ℓ : Loc nD τ sig) → Buf (Elt Ideal) ℓ) (ρ : Dev nD → PrngReg)

/-- The pooled means of the argument arrays as launched. -/
abbrev pooled (c : Dev nD) : S8x1024x256.Idx → EReal :=
  Cert.Pool.G (m ((c : Thread nD τ).loc main_arg0)) (m ((c : Thread nD τ).loc main_arg1)) (m ((c : Thread nD τ).loc main_arg2))

/-- What a second tile writes back is its batch's block of the pooled means. -/
theorem flushed_eq (c : Dev nD)
    (hdom : ∀ i : S8x1024.Idx, Cert.Pool.InDom ((m ((c : Thread nD τ).loc main_arg1) : S8x1024.Idx → BitVec 32) i) ((m ((c : Thread nD τ).loc main_arg2) : S8x1024.Idx → BitVec 32) i))
    (t : Fin cfg0.N) (hf : (cfg0.win 2).flush t = true) :
    (dats m 0 c).flushed 2 t = ((cfg0.win 2).blk t).view.read (Elt Ideal) (pooled m c) := by
  have ht : t.val % 2 = 1 := (flush0_2 t).mp hf
  have hN : t.val < 16 := lt_of_lt_of_eq t.isLt (show cfg0.N = 16 from N_0)
  obtain ⟨o0, o1, o2, b0, b1, b2, pb0, pb1, pb2, f0, f1, f2, pf0, pf1, pf2, c1, c0⟩ := idx_facts t ht
  show (cfg0.win 2).cut (grid0.coords t) ((dats m 0 c).after 2 t) = _
  rw [after_out, leftAt_odd m c t (by omega)]
  unfold tileAt
  let B : Fin 8 := ⟨t.val / 2, by omega⟩
  -- the even point's begin/end block is the odd point's: the same batch row
  have hsame : iblk m c 0 (prevPt t) = iblk m c 0 t := by
    funext y
    obtain ⟨z, s, k, rfl⟩ : ∃ (z : Fin 1) (s : Fin 1024) (k : Fin 2), y = ix3 z s k := ⟨y 0, y 1, y 2, eq_ix3 y⟩
    obtain rfl : z = 0 := Subsingleton.elim _ _
    exact (read_be m c (prevPt t) B pb0 pb1 pb2 s k).trans (read_be m c t B b0 b1 b2 s k).symm
  rw [hsame]
  funext y
  obtain ⟨z, s, d, rfl⟩ : ∃ (z : Fin 1) (s : Fin 1024) (d : Fin 256), y = ix3 z s d := ⟨y 0, y 1, y 2, eq_ix3 y⟩
  obtain rfl : z = 0 := Subsingleton.elim _ _
  have hemb : ((cfg0.win 2).blk t).view.emb (ix3 (n0 := 1) (n1 := 1024) (n2 := 256) 0 s d)
      = ix3 (n0 := 8) (n1 := 1024) (n2 := 256) B s d := by
    funext a; apply Fin.ext
    match a with
    | ⟨0, _⟩ => show win0_2.index t (0 : Fin 3) * 1 + 1 * 0 = t.val / 2; omega
    | ⟨1, _⟩ => show win0_2.index t (1 : Fin 3) * 1024 + 1 * s.val = s.val; omega
    | ⟨2, _⟩ => show win0_2.index t (2 : Fin 3) * 256 + 1 * d.val = d.val; omega
  rw [View.read_apply, hemb]
  have hlo := (read_be m c t B b0 b1 b2 s 0).trans (Cert.KernelIdeal.Host.be_lo m c B s)
  have hhi := (read_be m c t B b0 b1 b2 s 1).trans (Cert.KernelIdeal.Host.be_hi m c B s)
  have hfeat : ∀ q : Fin 4096, (V m c main_arg0 : S8x4096x256.Idx → EReal) (ix3 (n0 := 8) (n1 := 4096) (n2 := 256) B q d)
      = (m ((c : Thread nD τ).loc main_arg0) : S8x4096x256.Idx → EReal) (ix3 (n0 := 8) (n1 := 4096) (n2 := 256) B q d) :=
    fun q => congrFun (V_main_arg0 m c) _
  exact Cert.KernelIdeal.Pay.pay_pool (grid0.coords (prevPt t)) (grid0.coords t) c0 c1 (iblk m c 0 t) (iblk m c 1 (prevPt t)) (iblk m c 1 t)
    s d _ _ (hdom (ix2 (n0 := 8) (n1 := 1024) B s)) hlo hhi
    (fun q => (m ((c : Thread nD τ).loc main_arg0) : S8x4096x256.Idx → EReal) (ix3 (n0 := 8) (n1 := 4096) (n2 := 256) B q d))
    (fun j => (read_feat m c (prevPt t) B pf0 pf2 j d ⟨j.val, by have := j.isLt; omega⟩ (by dsimp only; omega)).trans (hfeat _))
    (fun j => (read_feat m c t B f0 f2 j d ⟨2048 + j.val, by have := j.isLt; omega⟩ (by dsimp only; omega)).trans (hfeat _))

/-- The result array after the run: the pooled means. -/
theorem final (c : Dev nD)
    (hdom : ∀ i : S8x1024.Idx, Cert.Pool.InDom ((m ((c : Thread nD τ).loc main_arg1) : S8x1024.Idx → BitVec 32) i) ((m ((c : Thread nD τ).loc main_arg2) : S8x1024.Idx → BitVec 32) i)) :
    (dats m 0 c).arrAt 2 cfg0.N = pooled m c :=
  (dats m 0 c).arrAt_eq_of_cover 2 (pooled m c) (fun t hf => flushed_eq m c hdom t hf) cover

/-- The run of the idealized kernel program, read: the result array ends at the pooled means of the arguments, and
    the arguments end unchanged. -/
theorem kernel_run
    (hdom : ∀ (c : Dev nD) (i : S8x1024.Idx), Cert.Pool.InDom ((m ((c : Thread nD τ).loc main_arg1) : S8x1024.Idx → BitVec 32) i) ((m ((c : Thread nD τ).loc main_arg2) : S8x1024.Idx → BitVec 32) i)) :
    θ_run defs (onTc (τ := τ) (main (F := Ideal))) ⟨m, fun _ => 0, ρ⟩ fun r => ∀ c : Dev nD,
      r.2.mem ((c.tc : Thread nD τ).loc main_v14) = pooled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (final m c (hdom c)),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.KValue

end
-- ==== Proof.PreDecode.lean ====
/-
  The precondition, read back as facts about the begin and end words.

  The stated precondition is a conjunction of three one-bit results: every feature is finite, every begin word is
  at most its end word (signed), and every end word is at most 4096 (signed). Each of the last two is an
  "all" over the 8 × 1024 spans, so when the whole conjunction is the bit 1 each span satisfies both
  inequalities; that is the domain of the common specification.
-/
import proofs.«410348_j53592601919893_3_alg».proof.Pre_finite_inputs
import proofs.«410348_j53592601919893_3_alg».proof.Proof.Spec
import Idealize.ShloMosaic.Lib.ReduceAll
import Idealize.ShloMosaic.Lib.StableHlo.Predicate

namespace Cert.Pool

open Idealize.ShloMosaic

/-- The result shape of an "all" has exactly one index. -/
instance subsingleton_scalar_idx : Subsingleton Cert.Pre_finite_inputs.S_.Idx :=
  ⟨fun a b => funext fun d => d.elim0⟩

/-- The word 4096 read signed is the integer 4096. -/
theorem toInt_4096 : (4096#32 : BitVec 32).toInt = 4096 := by decide

/-- When the precondition evaluates to the bit 1, every span's begin and end words lie in the domain:
    begin ≤ end ≤ 4096, read signed. -/
theorem dom_of_pre {F : FTy → Type} [FloatOps F] [Cert.Pre_finite_inputs.Facts]
    (x : FVec F Cert.Pre_finite_inputs.S8x4096x256 .f32) (bg en : IVec Cert.Pre_finite_inputs.S8x1024 32)
    (h : Cert.Pre_finite_inputs.fn (F := F) x bg en = fun _ => 1#1) :
    ∀ i : Cert.Pre_finite_inputs.S8x1024.Idx, Cert.Pool.InDom (bg i) (en i) := by
  intro i
  have h0 := congrFun h ValueIdx.ix0
  dsimp only [Cert.Pre_finite_inputs.fn] at h0
  -- the conjunction of three bits is 1: each of them is
  obtain ⟨h12, h3⟩ := IntOp.andi_eq_one.1 h0
  obtain ⟨-, h2⟩ := IntOp.andi_eq_one.1 h12
  -- an "all" that is 1 had a 1 at every span
  have e2 := Host.reduce_andi_all _ _ _ _ _ h2 i
  have e3 := Host.reduce_andi_all _ _ _ _ _ h3 i
  -- a signed "at most" bit that is 1 is the inequality of the words read signed
  have l2 : (bg i).toInt ≤ (en i).toInt := IntOp.cmpi_sle.1 e2
  have l3 : (en i).toInt ≤ (4096#32 : BitVec 32).toInt := IntOp.cmpi_sle.1 e3
  rw [toInt_4096] at l3
  exact ⟨l2, l3⟩

end Cert.Pool
-- ==== Proof.RAlg.lean ====
/-
  The reference's side of the window arithmetic, on words.

  The reference clamps the begin and end words at zero (`rb`, `re`), forms the 32 positions `rb b + w`, keeps those
  below `re e`, and gathers each at its position clipped into `[0, 4095]`. On the domain `b ≤ e ≤ 4096` nothing
  wraps: position `w` is `lo b + w`, it is kept exactly when `lo b + w < hi b e` (the cap at 32 positions is the
  range of `w` itself), a kept position is below 4096 so the clip leaves it alone, and the kept positions are
  exactly the window's, each once. So the 32-term masked sum is the window sum and the count of kept positions is
  the window's length.
-/
import proofs.«410348_j53592601919893_3_alg».proof.Proof.Spec
import Idealize.ShloMosaic.PureOps.Ideal.Laws

noncomputable section

open scoped BigOperators

namespace Cert.Pool

open Idealize.ShloMosaic Idealize.ShloMosaic.ValueIdx

/-- The begin word clamped at zero, as the reference computes it. -/
def rb (b : BitVec 32) : BitVec 32 := IntOp.maxsi b 0#32
/-- The end word clamped at zero. -/
def re (e : BitVec 32) : BitVec 32 := IntOp.maxsi e 0#32
/-- The reference's position `w` of a span. -/
def rpos (b : BitVec 32) (w : ℕ) : BitVec 32 := IntOp.addi (rb b) (BitVec.ofNat 32 w)
/-- The position clipped into `[0, 4095]` (the lower bound first, then the upper). -/
def rclip (b : BitVec 32) (w : ℕ) : BitVec 32 := IntOp.minsi 4095#32 (IntOp.maxsi 0#32 (rpos b w))

/-- The signed maximum of two words, read as integers, is the maximum of the two readings. -/
private theorem r_maxsi_toInt (x y : BitVec 32) : (IntOp.maxsi x y).toInt = max x.toInt y.toInt := by
  unfold IntOp.maxsi
  simp only [BitVec.slt, decide_eq_true_eq]
  split <;> omega

/-- Likewise for the signed minimum. -/
private theorem r_minsi_toInt (x y : BitVec 32) : (IntOp.minsi x y).toInt = min x.toInt y.toInt := by
  unfold IntOp.minsi
  simp only [BitVec.slt, decide_eq_true_eq]
  split <;> omega

theorem rb_toInt (b : BitVec 32) : (rb b).toInt = (lo b : ℤ) := by
  unfold rb lo
  rw [r_maxsi_toInt]
  simp only [BitVec.toInt_zero]
  omega
theorem re_toInt (e : BitVec 32) : (re e).toInt = max e.toInt 0 := by
  unfold re
  rw [r_maxsi_toInt]
  simp only [BitVec.toInt_zero]

/-- In the domain the window starts at or before position 4096. -/
private theorem r_lo_le (b e : BitVec 32) (hd : InDom b e) : lo b ≤ 4096 := by
  unfold lo; unfold InDom at hd; omega

/-- In the domain the window ends at or before position 4096. -/
private theorem r_hi_le (b e : BitVec 32) (hd : InDom b e) : hi b e ≤ 4096 := by
  unfold hi lo; unfold InDom at hd; omega

/-- Position `w < 32` of a span in the domain is `lo b + w`: no wrap. -/
theorem rpos_toInt (b e : BitVec 32) (hd : InDom b e) (w : ℕ) (hw : w < 32) : (rpos b w).toInt = ((lo b + w : ℕ) : ℤ) := by
  -- The sum of the two readings is at most 4096 + 31, far inside the signed range, so the balanced remainder
  -- modulo 2 ^ 32 returns it unchanged.
  have h1 := rb_toInt b
  have h2 := r_lo_le b e hd
  unfold rpos IntOp.addi
  rw [BitVec.toInt_add, BitVec.toInt_ofNat', h1]
  simp only [Int.bmod_def]
  omega

/-- It is kept exactly when it lies in the window. -/
theorem rvalid_iff (b e : BitVec 32) (hd : InDom b e) (w : ℕ) (hw : w < 32) :
    IntOp.cmpi .slt (rpos b w) (re e) = 1#1 ↔ lo b + w < hi b e := by
  -- `lo b + w` is below `lo b + 32` whatever happens, so being below `hi b e` is being below the clamped end.
  have h1 := rpos_toInt b e hd w hw
  have h2 := re_toInt e
  unfold IntOp.cmpi
  simp only [BitVec.slt, h1, h2]
  have hhi : (hi b e : ℤ) = min (max e.toInt 0) ((lo b : ℤ) + 32) := by unfold hi; omega
  by_cases h : ((lo b + w : ℕ) : ℤ) < max e.toInt 0
  · simp only [h, decide_true, BitVec.ofBool_true]
    exact ⟨fun _ => by omega, fun _ => rfl⟩
  · simp only [h, decide_false, BitVec.ofBool_false]
    constructor
    · intro hc; exact absurd hc (by decide)
    · intro hc; omega

/-- The clipped position is non-negative and is `min 4095 (lo b + w)`. -/
theorem rclip_toInt (b e : BitVec 32) (hd : InDom b e) (w : ℕ) (hw : w < 32) :
    (rclip b w).toInt = ((min 4095 (lo b + w) : ℕ) : ℤ) := by
  -- The position is already non-negative, so the clamp at zero does nothing and only the cap at 4095 remains.
  have h1 := rpos_toInt b e hd w hw
  unfold rclip
  rw [r_minsi_toInt, r_maxsi_toInt, h1]
  have e1 : (4095#32 : BitVec 32).toInt = 4095 := by decide
  rw [e1, BitVec.toInt_zero]
  omega
theorem rclip_not_neg (b e : BitVec 32) (hd : InDom b e) (w : ℕ) (hw : w < 32) :
    IntOp.cmpi .slt (rclip b w) 0#32 = 0#1 := by
  have h1 := rclip_toInt b e hd w hw
  unfold IntOp.cmpi
  simp only [BitVec.slt, h1, BitVec.toInt_zero]
  have hn : ¬ (((min 4095 (lo b + w) : ℕ) : ℤ) < 0) := by omega
  simp only [hn, decide_false, BitVec.ofBool_false]
  rfl

/-- The 32-term masked sum over the clipped positions is the window sum. -/
theorem rsum (b e : BitVec 32) (hd : InDom b e) (x : Fin 4096 → EReal) :
    (∑ w : Fin 32, if lo b + w.val < hi b e then x ⟨min 4095 (lo b + w.val), by omega⟩ else 0) = wsum b e x := by
  -- Both sides are sums over the terms that are kept. The map `w ↦ lo b + w` carries the kept offsets onto the
  -- window's positions: a kept offset lands below `hi b e ≤ 4096`, so the cap at 4095 leaves it alone; distinct
  -- offsets land on distinct positions; and a position `t` of the window comes from the offset `t - lo b`, which
  -- is below 32 because the window is at most 32 long.
  have hh := r_hi_le b e hd
  have hh2 : hi b e ≤ lo b + 32 := by unfold hi; omega
  unfold wsum
  rw [← Finset.sum_filter, ← Finset.sum_filter]
  refine Finset.sum_bij (fun w _ => ⟨min 4095 (lo b + w.val), by omega⟩) ?_ ?_ ?_ ?_
  · intro w hw
    simp only [Finset.mem_filter, Finset.mem_univ, true_and] at hw ⊢
    omega
  · intro w1 h1 w2 h2 heq
    simp only [Finset.mem_filter, Finset.mem_univ, true_and] at h1 h2
    have hv := congrArg Fin.val heq
    simp only at hv
    apply Fin.ext; omega
  · intro t ht
    simp only [Finset.mem_filter, Finset.mem_univ, true_and] at ht
    refine ⟨⟨t.val - lo b, by omega⟩, ?_, ?_⟩
    · simp only [Finset.mem_filter, Finset.mem_univ, true_and]; omega
    · apply Fin.ext; simp only; omega
  · intro w hw; rfl

/-- The number of kept positions is the window's length. -/
theorem rcount (b e : BitVec 32) (hd : InDom b e) :
    (∑ w : Fin 32, if lo b + w.val < hi b e then 1 else 0 : ℕ) = hi b e - lo b := by
  -- The kept offsets are exactly those below `hi b e - lo b`, a number that is at most 32.
  have hh2 : hi b e ≤ lo b + 32 := by unfold hi; omega
  rw [Fin.sum_univ_eq_sum_range (fun i => if lo b + i < hi b e then 1 else 0) 32]
  rw [Finset.sum_boole]
  have hset : (Finset.range 32).filter (fun i => lo b + i < hi b e) = Finset.range (hi b e - lo b) := by
    ext i; simp only [Finset.mem_filter, Finset.mem_range]; omega
  rw [hset]; simp

/-- The word `0x3F800000` read as a single-precision value is one: sign plus, biased exponent 127, fraction 0. -/
private theorem one_word : Ideal.ofBits .f32 0x3F800000#32 = 1 := by
  simp [Ideal.ofBits, Ideal.ieee, -EReal.coe_mul]; norm_num

/-- The reference's divisor: the count of kept positions, raised to 1. -/
theorem rcnt (b e : BitVec 32) (hd : InDom b e) :
    max ((((hi b e - lo b : ℕ) : ℤ) : ℝ) : EReal) (Ideal.ofBits .f32 0x3F800000#32) = wcnt b e := by
  -- A natural number sent to the reals through the integers is the same real.
  rw [one_word]
  unfold wcnt
  rw [Int.cast_natCast]

end Cert.Pool

end
-- ==== Proof.RRead.lean ====
/-
  The reference program computes the pooled mean of the specification.

  Read at (batch b, span s, feature d), the reference's result is a quotient. Its numerator is a sum over the 32
  positions w of a span: term w is the feature row gathered at the position lo + w clipped into [0, 4095] when that
  position lies below the window's end, and zero otherwise. Its denominator is the number of positions kept, turned
  into a real number and replaced by 1 when it is smaller (a maximum with 1). On the domain begin ≤ end ≤ 4096 the
  clipped position of a kept term is the position itself, so the numerator is the sum of the feature column over the
  window and the denominator is the larger of the window's length and 1: the quotient is the specification's mean.

  Two operations are read here from their definitions. The gather: with the batch axis paired between operand and
  start indices, the position axis collapsed and the feature axis carried through whole, the element at
  (b, s, w, d) is the operand at (b, p, d), where p is the start index at (b, s, w) read signed and clamped into
  [0, 4095]. The integer sum over the axis of 32 positions of 0/1 words: a fold of word addition from zero, whose
  value is the number of ones.
-/
import proofs.«410348_j53592601919893_3_alg».proof.Proof.Spec
import proofs.«410348_j53592601919893_3_alg».proof.Proof.RAlg
import proofs.«410348_j53592601919893_3_alg».proof.Proof.Gen.ReferenceIdeal.Run
import proofs.«410348_j53592601919893_3_alg».proof.Proof.Gen.ReferenceIdeal.Read
import Idealize.ShloMosaic.Lib.ValueIdx
import Idealize.ShloMosaic.Lib.IndicatorCount

noncomputable section

open scoped BigOperators

namespace Cert.ReferenceIdeal.RefValue

open Cert.ReferenceIdeal Cert.ReferenceIdeal.Gen Cert.ReferenceIdeal.Read Idealize.ShloMosaic Idealize.ShloMosaic.ValueIdx

/-- The gather's dimension numbers, under a short name. -/
abbrev GD := gather_S8x4096x256_S8x1024x32x1_S8x1024x32x256_3_1_0_0_1_3_11256

/-- The gather read at one element. On the batch axis the operand index is the result's batch coordinate (that axis
    is paired with the start indices' batch axis and is not indexed); on the position axis it is the start index at
    (b, s, w), read as a signed integer and clamped so that a slice of one position fits, that is into [0, 4095]; on
    the feature axis it is the result's feature coordinate, the slice there being the whole axis. -/
theorem gather_read {α : Type} (x : S8x4096x256.Idx → α) (st : IVec S8x1024x32x1 32)
    (b : Fin 8) (s : Fin 1024) (w : Fin 32) (d : Fin 256) :
    Host.gather gather_S8x4096x256_S8x1024x32x1_S8x1024x32x256_3_1_0_0_1_3_11256 x st
        (ix4 (n0 := 8) (n1 := 1024) (n2 := 32) (n3 := 256) b s w d)
      = x (ix3 (n0 := 8) (n1 := 4096) (n2 := 256) b
            ⟨min (st (ix4 (n0 := 8) (n1 := 1024) (n2 := 32) (n3 := 1) b s w 0)).toInt.toNat 4095, by omega⟩ d) := by
  unfold Host.gather
  refine congrArg x (funext fun a => Fin.ext ?_)
  have hb0 : (0 : Fin 3) ∈ GD.operandBatchingDims := by decide
  have hb1 : (1 : Fin 3) ∉ GD.operandBatchingDims := by decide
  have hb2 : (2 : Fin 3) ∉ GD.operandBatchingDims := by decide
  have hk0 : (0 : Fin 3) ∉ GD.sKept := by decide
  have hk1 : (1 : Fin 3) ∉ GD.sKept := by decide
  have hk2 : (2 : Fin 3) ∈ GD.sKept := by decide
  have hm1 : (1 : Fin 3) ∈ GD.startIndexMap := by decide
  have hm2 : (2 : Fin 3) ∉ GD.startIndexMap := by decide
  match a with
  | ⟨0, _⟩ =>
    show GD.start _ st 0 + GD.batchCoord _ 0 + GD.offCoord _ 0 = b.val
    rw [GD.start_batching _ st 0 hb0, GD.offCoord_eq_zero _ 0 hk0]
    unfold GatherDims.batchCoord
    rw [dif_pos hb0, Nat.add_zero, Nat.zero_add]
    rfl
  | ⟨1, _⟩ =>
    show GD.start _ st 1 + GD.batchCoord _ 1 + GD.offCoord _ 1 = _
    rw [GD.batchCoord_eq_zero _ 1 hb1, GD.offCoord_eq_zero _ 1 hk1]
    unfold GatherDims.start
    rw [dif_pos hm1, Nat.add_zero]
    have hsi : GD.siIdx (ix4 (n0 := 8) (n1 := 1024) (n2 := 32) (n3 := 256) b s w d)
        ⟨List.idxOf (1 : Fin 3) GD.startIndexMap, List.idxOf_lt_length_iff.2 hm1⟩
        = ix4 (n0 := 8) (n1 := 1024) (n2 := 32) (n3 := 1) b s w 0 := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    show GD.start _ st 2 + GD.batchCoord _ 2 + GD.offCoord _ 2 = d.val
    rw [GD.batchCoord_eq_zero _ 2 hb2]
    unfold GatherDims.start GatherDims.offCoord
    rw [dif_neg hm2, dif_pos hk2, Nat.zero_add]
    rfl

open Cert.Pool

/-- An array of begin or end words, one per (batch, span). -/
abbrev W := (⟨S8x1024, .i32⟩ : BufTy).Contents (Elt Ideal)

/-- Position w of span (b, s): the begin word clamped at zero, plus w. -/
theorem v9_at (bg : W) (b : Fin 8) (s : Fin 1024) (w : Fin 32) :
    val_main_v9 (F := Ideal) bg (ix3 (n0 := 8) (n1 := 1024) (n2 := 32) b s w)
      = rpos (bg (ix2 (n0 := 8) (n1 := 1024) b s)) w.val := by
  rw [val_main_v9_apply, val_main_v7_apply, val_main_v4_apply, val_main_v1_apply, val_main_v0_apply, val_main_c_apply,
    val_main_v8_apply, val_main_v6_apply, val_main_v5_apply]
  have e : idx_main_v4 (idx_main_v7 (ix3 (n0 := 8) (n1 := 1024) (n2 := 32) b s w)) = ix2 (n0 := 8) (n1 := 1024) b s :=
    funext fun a => Fin.ext (by match a with | ⟨0, _⟩ => rfl | ⟨1, _⟩ => rfl)
  rw [e]
  rfl

/-- The end word of span (b, s) clamped at zero, the same for every position w. -/
theorem v11_at (en : W) (b : Fin 8) (s : Fin 1024) (w : Fin 32) :
    val_main_v11 (F := Ideal) en (ix3 (n0 := 8) (n1 := 1024) (n2 := 32) b s w)
      = re (en (ix2 (n0 := 8) (n1 := 1024) b s)) := by
  rw [val_main_v11_apply, val_main_v10_apply, val_main_v3_apply, val_main_v2_apply, val_main_c_0_apply]
  have e : idx_main_v10 (idx_main_v11 (ix3 (n0 := 8) (n1 := 1024) (n2 := 32) b s w)) = ix2 (n0 := 8) (n1 := 1024) b s :=
    funext fun a => Fin.ext (by match a with | ⟨0, _⟩ => rfl | ⟨1, _⟩ => rfl)
  rw [e]
  rfl

/-- Position w is kept when it lies below the clamped end, compared signed. -/
theorem v12_at (bg en : W) (b : Fin 8) (s : Fin 1024) (w : Fin 32) :
    val_main_v12 (F := Ideal) bg en (ix3 (n0 := 8) (n1 := 1024) (n2 := 32) b s w)
      = IntOp.cmpi .slt (rpos (bg (ix2 (n0 := 8) (n1 := 1024) b s)) w.val) (re (en (ix2 (n0 := 8) (n1 := 1024) b s))) := by
  rw [val_main_v12_apply, v9_at, v11_at]

/-- The position clipped into [0, 4095]. -/
theorem v13_at (bg : W) (b : Fin 8) (s : Fin 1024) (w : Fin 32) :
    val_main_v13 (F := Ideal) bg (ix3 (n0 := 8) (n1 := 1024) (n2 := 32) b s w)
      = rclip (bg (ix2 (n0 := 8) (n1 := 1024) b s)) w.val := by
  rw [val_main_v13_apply, val_main_call0_v4_apply, val_main_call0_v3_apply, val_main_c_2_apply,
    val_main_call0_v2_apply, val_main_call0_v1_apply, val_main_call0_v0_apply, val_main_c_1_apply, v9_at]
  rfl

/-- A negative clipped position would be shifted up by 4096; in the domain the clipped position is never negative, so it
    is left as it is. -/
theorem v18_at (bg : W) (en : BitVec 32) (b : Fin 8) (s : Fin 1024) (w : Fin 32)
    (hd : InDom (bg (ix2 (n0 := 8) (n1 := 1024) b s)) en) :
    val_main_v18 (F := Ideal) bg (ix3 (n0 := 8) (n1 := 1024) (n2 := 32) b s w)
      = rclip (bg (ix2 (n0 := 8) (n1 := 1024) b s)) w.val := by
  rw [val_main_v18_apply, val_main_v15_apply, val_main_v14_apply, val_main_c_3_apply, v13_at,
    rclip_not_neg _ en hd w.val w.isLt, select_zero]

/-- The array of features, one row of 256 per (batch, position). -/
abbrev X := (⟨S8x4096x256, .f32⟩ : BufTy).Contents (Elt Ideal)

/-- The start indices of the gather: the clipped positions, with a trailing axis of extent one. -/
theorem v19_at (bg : W) (en : BitVec 32) (b : Fin 8) (s : Fin 1024) (w : Fin 32)
    (hd : InDom (bg (ix2 (n0 := 8) (n1 := 1024) b s)) en) :
    val_main_v19 (F := Ideal) bg (ix4 (n0 := 8) (n1 := 1024) (n2 := 32) (n3 := 1) b s w 0)
      = rclip (bg (ix2 (n0 := 8) (n1 := 1024) b s)) w.val := by
  rw [val_main_v19_apply]
  have e : idx_main_v19 (ix4 (n0 := 8) (n1 := 1024) (n2 := 32) (n3 := 1) b s w 0)
      = ix3 (n0 := 8) (n1 := 1024) (n2 := 32) b s w :=
    funext fun a => Fin.ext (by match a with | ⟨0, _⟩ => rfl | ⟨1, _⟩ => rfl | ⟨2, _⟩ => rfl)
  rw [e, v18_at bg en b s w hd]

/-- The gathered element at (b, s, w, d): the feature at batch b, position min 4095 (lo + w), feature d. The clamp of
    the gather changes nothing, the clipped position already lying in [0, 4095]. -/
theorem v20_at (x : X) (bg : W) (en : BitVec 32) (b : Fin 8) (s : Fin 1024) (w : Fin 32) (d : Fin 256)
    (hd : InDom (bg (ix2 (n0 := 8) (n1 := 1024) b s)) en) :
    val_main_v20 (F := Ideal) x bg (ix4 (n0 := 8) (n1 := 1024) (n2 := 32) (n3 := 256) b s w d)
      = x (ix3 (n0 := 8) (n1 := 4096) (n2 := 256) b
            ⟨min 4095 (lo (bg (ix2 (n0 := 8) (n1 := 1024) b s)) + w.val), by omega⟩ d) := by
  unfold val_main_v20
  rw [gather_read]
  refine congrArg (fun t => x (ix3 (n0 := 8) (n1 := 4096) (n2 := 256) b t d)) (Fin.ext ?_)
  show min (val_main_v19 (F := Ideal) bg (ix4 (n0 := 8) (n1 := 1024) (n2 := 32) (n3 := 1) b s w 0)).toInt.toNat 4095
    = min 4095 (lo (bg (ix2 (n0 := 8) (n1 := 1024) b s)) + w.val)
  rw [v19_at bg en b s w hd, rclip_toInt _ en hd w.val w.isLt, Int.toNat_natCast]
  omega

/-- The masked element: the gathered feature where position w lies in the window, zero elsewhere. -/
theorem v22_at (x : X) (bg en : W) (b : Fin 8) (s : Fin 1024) (w : Fin 32) (d : Fin 256)
    (hd : InDom (bg (ix2 (n0 := 8) (n1 := 1024) b s)) (en (ix2 (n0 := 8) (n1 := 1024) b s))) :
    val_main_v22 (F := Ideal) x bg en (ix4 (n0 := 8) (n1 := 1024) (n2 := 32) (n3 := 256) b s w d)
      = if lo (bg (ix2 (n0 := 8) (n1 := 1024) b s)) + w.val
            < hi (bg (ix2 (n0 := 8) (n1 := 1024) b s)) (en (ix2 (n0 := 8) (n1 := 1024) b s))
        then x (ix3 (n0 := 8) (n1 := 4096) (n2 := 256) b
            ⟨min 4095 (lo (bg (ix2 (n0 := 8) (n1 := 1024) b s)) + w.val), by omega⟩ d)
        else 0 := by
  rw [val_main_v22_apply, val_main_call1_v1_apply, val_main_v21_apply, val_main_call1_v2_apply,
    val_main_call1_v0_apply, val_main_cst_apply, v20_at x bg _ b s w d hd]
  have e : idx_main_v21 (idx_main_call1_v1 (ix4 (n0 := 8) (n1 := 1024) (n2 := 32) (n3 := 256) b s w d))
      = ix3 (n0 := 8) (n1 := 1024) (n2 := 32) b s w :=
    funext fun a => Fin.ext (by match a with | ⟨0, _⟩ => rfl | ⟨1, _⟩ => rfl | ⟨2, _⟩ => rfl)
  rw [e, v12_at, Ideal.ofBits_def, Ideal.ofBits_zero_f32]
  by_cases h : lo (bg (ix2 (n0 := 8) (n1 := 1024) b s)) + w.val
      < hi (bg (ix2 (n0 := 8) (n1 := 1024) b s)) (en (ix2 (n0 := 8) (n1 := 1024) b s))
  · rw [if_pos h, (rvalid_iff _ _ hd w.val w.isLt).mpr h, select_one]
  · rw [if_neg h, eq_zero_of_ne_one (fun h1 => h ((rvalid_iff _ _ hd w.val w.isLt).mp h1)), select_zero]

/-- The numerator: the 32 masked terms sum to the feature column's sum over the window. -/
theorem v23_at (x : X) (bg en : W) (b : Fin 8) (s : Fin 1024) (d : Fin 256)
    (hd : InDom (bg (ix2 (n0 := 8) (n1 := 1024) b s)) (en (ix2 (n0 := 8) (n1 := 1024) b s))) :
    val_main_v23 (F := Ideal) x bg en (ix3 (n0 := 8) (n1 := 1024) (n2 := 256) b s d)
      = wsum (bg (ix2 (n0 := 8) (n1 := 1024) b s)) (en (ix2 (n0 := 8) (n1 := 1024) b s))
          (fun t => x (ix3 (n0 := 8) (n1 := 4096) (n2 := 256) b t d)) := by
  rw [val_main_v23_apply, val_main_cst_5_apply, Ideal.ofBits_def, Ideal.ofBits_zero_f32, zero_add]
  refine Eq.trans (Finset.sum_congr rfl fun w _ => ?_) (rsum _ _ hd _)
  have e : idx_main_v23 (ix3 (n0 := 8) (n1 := 1024) (n2 := 256) b s d) w
      = ix4 (n0 := 8) (n1 := 1024) (n2 := 32) (n3 := 256) b s w d :=
    funext fun a => Fin.ext (by match a with | ⟨0, _⟩ => rfl | ⟨1, _⟩ => rfl | ⟨2, _⟩ => rfl | ⟨3, _⟩ => rfl)
  rw [e, v22_at x bg en b s w d hd]

/-- A number up to 32, as a 32-bit word, reads back signed as itself. -/
theorem toInt_ofNat_small (n : ℕ) (h : n ≤ 32) : (BitVec.ofNat 32 n).toInt = (n : ℤ) := by
  rw [BitVec.toInt_eq_toNat_cond, BitVec.toNat_ofNat, Nat.mod_eq_of_lt (by omega)]
  split <;> omega

/-- Dropping the axis of 32 positions from a (batch, span, position) shape leaves the (batch, span) shape. -/
theorem red32 : S8x1024x32.Reduces [2] S8x1024 := by decide

/-- Inserting position k at the summed axis of (b, s) gives (b, s, k). -/
theorem red32_lift (b : Fin 8) (s : Fin 1024) (k : Fin 32) :
    red32.lift (ix2 (n0 := 8) (n1 := 1024) b s) k = ix3 (n0 := 8) (n1 := 1024) (n2 := 32) b s k :=
  funext fun a => Fin.ext (by match a with | ⟨0, _⟩ => rfl | ⟨1, _⟩ => rfl | ⟨2, _⟩ => rfl)

/-- The integer sum at (b, s) is the fold of word addition from zero over the 32 widened keep bits. -/
theorem v25_fold (bg en : W) (b : Fin 8) (s : Fin 1024) :
    val_main_v25 (F := Ideal) bg en (ix2 (n0 := 8) (n1 := 1024) b s)
      = (Finset.univ : Finset (Fin 32)).fold IntOp.addi 0#32
          (fun k => (val_main_v12 (F := Ideal) bg en (ix3 (n0 := 8) (n1 := 1024) (n2 := 32) b s k)).setWidth 32) := by
  unfold val_main_v25
  refine (Host.reduce_eq_fold_single IntOp.addi _ _ reducesTo_S8x1024x32_S8x1024_d2 red32 h_S_ _).trans ?_
  exact Finset.fold_congr (fun k _ => by
    show val_main_v24 (F := Ideal) bg en (red32.lift (ix2 (n0 := 8) (n1 := 1024) b s) k) = _
    rw [red32_lift b s k]
    rfl)

/-- The count of kept positions is the window's length, as a word. -/
theorem v25_at (bg en : W) (b : Fin 8) (s : Fin 1024)
    (hd : InDom (bg (ix2 (n0 := 8) (n1 := 1024) b s)) (en (ix2 (n0 := 8) (n1 := 1024) b s))) :
    val_main_v25 (F := Ideal) bg en (ix2 (n0 := 8) (n1 := 1024) b s)
      = BitVec.ofNat 32 (hi (bg (ix2 (n0 := 8) (n1 := 1024) b s)) (en (ix2 (n0 := 8) (n1 := 1024) b s))
          - lo (bg (ix2 (n0 := 8) (n1 := 1024) b s))) := by
  rw [v25_fold, IndicatorCount.fold_addi_setWidth_eq_card, Finset.card_filter, ← rcount _ _ hd]
  refine congrArg (BitVec.ofNat 32) (Finset.sum_congr rfl fun k _ => ?_)
  rw [v12_at]
  exact if_congr (rvalid_iff _ _ hd k.val k.isLt) rfl rfl

/-- The denominator: the larger of the window's length, as a real number, and 1. The length is at most 32, so reading the count
    word signed gives the length back. -/
theorem v30_at (bg en : W) (b : Fin 8) (s : Fin 1024) (d : Fin 256)
    (hd : InDom (bg (ix2 (n0 := 8) (n1 := 1024) b s)) (en (ix2 (n0 := 8) (n1 := 1024) b s))) :
    val_main_v30 (F := Ideal) bg en (ix3 (n0 := 8) (n1 := 1024) (n2 := 256) b s d)
      = wcnt (bg (ix2 (n0 := 8) (n1 := 1024) b s)) (en (ix2 (n0 := 8) (n1 := 1024) b s)) := by
  rw [val_main_v30_apply, val_main_v29_apply, val_main_v28_apply, val_main_v26_apply, val_main_v27_apply,
    val_main_cst_7_apply]
  have e : idx_main_v29 (idx_main_v30 (ix3 (n0 := 8) (n1 := 1024) (n2 := 256) b s d)) = ix2 (n0 := 8) (n1 := 1024) b s :=
    funext fun a => Fin.ext (by match a with | ⟨0, _⟩ => rfl | ⟨1, _⟩ => rfl)
  rw [e, v25_at bg en b s hd, ← rcnt _ _ hd]
  show max (((BitVec.ofNat 32 _).toInt : ℝ) : EReal) _ = _
  rw [toInt_ofNat_small _ (by unfold hi; omega)]
  rfl

/-- THE REFERENCE IS THE SPECIFICATION: on the domain, at every (batch, span, feature), the reference's quotient is the
    mean of the feature column over the span's window. -/
theorem ref_pool (x : (⟨S8x4096x256, .f32⟩ : BufTy).Contents (Elt Ideal))
    (bg en : (⟨S8x1024, .i32⟩ : BufTy).Contents (Elt Ideal))
    (hd : ∀ i : S8x1024.Idx, Cert.Pool.InDom (bg i) (en i)) :
    val_main_v31 (F := Ideal) x bg en = Cert.Pool.G x bg en := by
  funext i
  obtain ⟨b, s, d, rfl⟩ : ∃ (b : Fin 8) (s : Fin 1024) (d : Fin 256), i = ix3 b s d := ⟨i 0, i 1, i 2, eq_ix3 i⟩
  rw [val_main_v31_apply, v23_at x bg en b s d (hd _), v30_at bg en b s d (hd _)]
  rfl

end Cert.ReferenceIdeal.RefValue

end
-- ==== Proof.lean ====
/-
  The pooling kernel against its reference, over the extended reals.

  For each batch and span, with begin and end words `b` and `e` read signed, both programs clamp the two at zero
  and average the features over at most 32 positions: the window `lo ≤ t < hi` with `lo = max b 0` and
  `hi = min (max e 0) (lo + 32)`, the divisor the window's length or 1 for an empty window. The statement's domain is
  `b ≤ e ≤ 4096` for every span: there the window lies inside the 4096 positions and is not reversed.

  The kernel tests membership by one unsigned comparison on host-clamped words and sums the indicator-weighted
  features as two matrix products over tiles of 2048 positions, accumulated in the output block and divided at the
  second tile; on the domain the comparison holds exactly on the window and the two tiles' sums are the window sum.
  The reference gathers the 32 positions `lo + w` clipped into range, keeps those below the clamped end, sums them
  and counts them; on the domain the kept positions are exactly the window's, none clipped. Zero times any extended
  real is zero and sums may be regrouped freely, so no finiteness of the features is used.

  The frames: the kernel's body is run at the two kinds of grid point (first and second tile of a batch), at any float
  instance, once for the program as printed and once for its idealization; the reference is host operations only.
  The idealization rewrites nothing, so there is nothing to preserve.
-/
import proofs.«410348_j53592601919893_3_alg».proof.Defs
import proofs.«410348_j53592601919893_3_alg».proof.Proof.Gen.Kernel
import proofs.«410348_j53592601919893_3_alg».proof.Proof.Gen.KernelIdeal
import proofs.«410348_j53592601919893_3_alg».proof.Proof.Gen.ReferenceIdeal
import proofs.«410348_j53592601919893_3_alg».proof.Proof.Gen.Pre_finite_inputs
import proofs.«410348_j53592601919893_3_alg».proof.Proof.Gen.ReferenceIdeal.Run
import proofs.«410348_j53592601919893_3_alg».proof.Proof.Gen.ReferenceIdeal.Read
import proofs.«410348_j53592601919893_3_alg».proof.Proof.Body
import proofs.«410348_j53592601919893_3_alg».proof.Proof.BodyK
import proofs.«410348_j53592601919893_3_alg».proof.Proof.KValue
import proofs.«410348_j53592601919893_3_alg».proof.Proof.PreDecode
import proofs.«410348_j53592601919893_3_alg».proof.Proof.RRead

noncomputable section

namespace Cert.Proof

open Idealize.ShloMosaic Idealize.ShloMosaic.TcCoe Idealize.SL.Sem

/-- The word-level kernel program runs and leaves its arguments alone. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does the idealized kernel program. -/
theorem frame_kernel_ideal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the domain the precondition states (begin ≤ end ≤ 4096 for every span) both programs end with the pooled
    means of the argument arrays: the kernel's result array by its frame run read block by block, the reference's
    by its run read operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdom : ∀ (c : Dev Cert.KernelIdeal.nD) (i : Cert.KernelIdeal.S8x1024.Idx),
      Cert.Pool.InDom ((m ((c : Thread Cert.KernelIdeal.nD Cert.KernelIdeal.τ).loc Cert.KernelIdeal.main_arg1) : Cert.KernelIdeal.S8x1024.Idx → BitVec 32) i)
        ((m ((c : Thread Cert.KernelIdeal.nD Cert.KernelIdeal.τ).loc Cert.KernelIdeal.main_arg2) : Cert.KernelIdeal.S8x1024.Idx → BitVec 32) i) :=
    fun c => Cert.Pool.dom_of_pre (F := Ideal) _ _ _ (hpre c)
  refine ⟨fun c => Cert.KernelIdeal.KValue.pooled m c, Cert.KernelIdeal.KValue.kernel_run m ρ hdom, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, (hagree c).1, (hagree c).2.1, (hagree c).2.2]
  exact Cert.ReferenceIdeal.RefValue.ref_pool _ _ _ (hdom c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
